-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x192 : Shape := ⟨3, ![4, 4096, 192]⟩
abbrev S4x4096x4096 : Shape := ⟨3, ![4, 4096, 4096]⟩
abbrev S192x192 : Shape := ⟨2, ![192, 192]⟩
abbrev S_ : Shape := ⟨0, ![]⟩

class Facts : Prop where
  bcast_S_S4x4096x192 : S_.BroadcastsInDim S4x4096x192 (![] : Fin 0 → Fin S4x4096x192.rank)
  reducesTo_S4x4096x192_S_d0_1_2 : S4x4096x192.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S192x192 : S_.BroadcastsInDim S192x192 (![] : Fin 0 → Fin S192x192.rank)
  reducesTo_S192x192_S_d0_1 : S192x192.ReducesTo [0, 1] S_

variable [Facts]

def fn_part2 {F : FTy → Type} [FloatOps F] (main_arg7 : FVec F S192x192 .f32) (main_arg8 : FVec F S192x192 .f32) (main_v33 : IVec S_ 1) : IVec S_ 1 :=
  let main_v34 : FVec F S192x192 .f32 := Host.absf main_arg7
  let main_cst_12 : FVec F S_ .f32 := constant S_ .f32 0x7F800000#32
  let main_v35 : FVec F S192x192 .f32 := broadcastInDim S192x192 ![] bcast_S_S192x192 main_cst_12
  let main_v36 : IVec S192x192 1 := cmpf .olt main_v34 main_v35
  let main_c_13 : IVec S_ 1 := constantI S_ 1 1#1
  let main_v37 : IVec S_ 1 := (fun x v => Host.reduce IntOp.andi x v reducesTo_S192x192_S_d0_1 h_S_) main_v36 main_c_13
  let main_v38 : IVec S_ 1 := andi main_v33 main_v37
  let main_v39 : FVec F S192x192 .f32 := Host.absf main_arg8
  let main_cst_14 : FVec F S_ .f32 := constant S_ .f32 0x7F800000#32
  let main_v40 : FVec F S192x192 .f32 := broadcastInDim S192x192 ![] bcast_S_S192x192 main_cst_14
  let main_v41 : IVec S192x192 1 := cmpf .olt main_v39 main_v40
  let main_c_15 : IVec S_ 1 := constantI S_ 1 1#1
  let main_v42 : IVec S_ 1 := (fun x v => Host.reduce IntOp.andi x v reducesTo_S192x192_S_d0_1 h_S_) main_v41 main_c_15
  let main_v43 : IVec S_ 1 := andi main_v38 main_v42
  main_v43

def fn_part1 {F : FTy → Type} [FloatOps F] (main_arg4 : FVec F S4x4096x4096 .f32) (main_arg5 : FVec F S192x192 .f32) (main_arg6 : FVec F S192x192 .f32) (main_arg7 : FVec F S192x192 .f32) (main_arg8 : FVec F S192x192 .f32) (main_v13 : IVec S_ 1) (main_v16 : IVec S4x4096x4096 1) : IVec S_ 1 :=
  let main_c_5 : IVec S_ 1 := constantI S_ 1 1#1
  let main_v17 : IVec S_ 1 := (fun x v => Host.reduce IntOp.andi x v reducesTo_S4x4096x4096_S_d0_1_2 h_S_) main_v16 main_c_5
  let main_v18 : IVec S_ 1 := andi main_v13 main_v17
  let main_v19 : FVec F S4x4096x4096 .f32 := Host.absf main_arg4
  let main_cst_6 : FVec F S_ .f32 := constant S_ .f32 0x7F800000#32
  let main_v20 : FVec F S4x4096x4096 .f32 := broadcastInDim S4x4096x4096 ![] bcast_S_S4x4096x4096 main_cst_6
  let main_v21 : IVec S4x4096x4096 1 := cmpf .olt main_v19 main_v20
  let main_c_7 : IVec S_ 1 := constantI S_ 1 1#1
  let main_v22 : IVec S_ 1 := (fun x v => Host.reduce IntOp.andi x v reducesTo_S4x4096x4096_S_d0_1_2 h_S_) main_v21 main_c_7
  let main_v23 : IVec S_ 1 := andi main_v18 main_v22
  let main_v24 : FVec F S192x192 .f32 := Host.absf main_arg5
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S192x192 .f32 := Host.absf main_arg6
  let main_cst_10 : FVec F S_ .f32 := constant S_ .f32 0x7F800000#32
  let main_v30 : FVec F S192x192 .f32 := broadcastInDim S192x192 ![] bcast_S_S192x192 main_cst_10
  let main_v31 : IVec S192x192 1 := cmpf .olt main_v29 main_v30
  let main_c_11 : IVec S_ 1 := constantI S_ 1 1#1
  let main_v32 : IVec S_ 1 := (fun x v => Host.reduce IntOp.andi x v reducesTo_S192x192_S_d0_1 h_S_) main_v31 main_c_11
  let main_v33 : IVec S_ 1 := andi main_v28 main_v32
  fn_part2 (F := F) main_arg7 main_arg8 main_v33

def fn {F : FTy → Type} [FloatOps F] (main_arg0 : FVec F S4x4096x192 .f32) (main_arg1 : FVec F S4x4096x192 .f32) (main_arg2 : FVec F S4x4096x192 .f32) (main_arg3 : FVec F S4x4096x4096 .f32) (main_arg4 : FVec F S4x4096x4096 .f32) (main_arg5 : FVec F S192x192 .f32) (main_arg6 : FVec F S192x192 .f32) (main_arg7 : FVec F S192x192 .f32) (main_arg8 : FVec F S192x192 .f32) : IVec S_ 1 :=
  let main_v0 : FVec F S4x4096x192 .f32 := Host.absf main_arg0
  let main_cst : FVec F S_ .f32 := constant S_ .f32 0x7F800000#32
  let main_v1 : FVec F S4x4096x192 .f32 := broadcastInDim S4x4096x192 ![] bcast_S_S4x4096x192 main_cst
  let main_v2 : IVec S4x4096x192 1 := cmpf .olt main_v0 main_v1
  let main_c : IVec S_ 1 := constantI S_ 1 1#1
  let main_v3 : IVec S_ 1 := (fun x v => Host.reduce IntOp.andi x v reducesTo_S4x4096x192_S_d0_1_2 h_S_) main_v2 main_c
  let main_v4 : FVec F S4x4096x192 .f32 := Host.absf main_arg1
  let main_cst_0 : FVec F S_ .f32 := constant S_ .f32 0x7F800000#32
  let main_v5 : FVec F S4x4096x192 .f32 := broadcastInDim S4x4096x192 ![] bcast_S_S4x4096x192 main_cst_0
  let main_v6 : IVec S4x4096x192 1 := cmpf .olt main_v4 main_v5
  let main_c_1 : IVec S_ 1 := constantI S_ 1 1#1
  let main_v7 : IVec S_ 1 := (fun x v => Host.reduce IntOp.andi x v reducesTo_S4x4096x192_S_d0_1_2 h_S_) main_v6 main_c_1
  let main_v8 : IVec S_ 1 := andi main_v3 main_v7
  let main_v9 : FVec F S4x4096x192 .f32 := Host.absf main_arg2
  let main_cst_2 : FVec F S_ .f32 := constant S_ .f32 0x7F800000#32
  let main_v10 : FVec F S4x4096x192 .f32 := broadcastInDim S4x4096x192 ![] bcast_S_S4x4096x192 main_cst_2
  let main_v11 : IVec S4x4096x192 1 := cmpf .olt main_v9 main_v10
  let main_c_3 : IVec S_ 1 := constantI S_ 1 1#1
  let main_v12 : IVec S_ 1 := (fun x v => Host.reduce IntOp.andi x v reducesTo_S4x4096x192_S_d0_1_2 h_S_) main_v11 main_c_3
  let main_v13 : IVec S_ 1 := andi main_v8 main_v12
  let main_v14 : FVec F S4x4096x4096 .f32 := Host.absf main_arg3
  let main_cst_4 : FVec F S_ .f32 := constant S_ .f32 0x7F800000#32
  let main_v15 : FVec F S4x4096x4096 .f32 := broadcastInDim S4x4096x4096 ![] bcast_S_S4x4096x4096 main_cst_4
  let main_v16 : IVec S4x4096x4096 1 := cmpf .olt main_v14 main_v15
  fn_part1 (F := F) main_arg4 main_arg5 main_arg6 main_arg7 main_arg8 main_v13 main_v16
-- ==== Kernel.lean ====
abbrev S4x4096x192 : Shape := ⟨3, ![4, 4096, 192]⟩
abbrev S4x4096x4096 : Shape := ⟨3, ![4, 4096, 4096]⟩
abbrev S192x192 : Shape := ⟨2, ![192, 192]⟩
abbrev S1x512x192 : Shape := ⟨3, ![1, 512, 192]⟩
abbrev S512x192 : Shape := ⟨2, ![512, 192]⟩
abbrev S1x128x192 : Shape := ⟨3, ![1, 128, 192]⟩
abbrev S1x4096x192 : Shape := ⟨3, ![1, 4096, 192]⟩
abbrev S1x128x4096 : Shape := ⟨3, ![1, 128, 4096]⟩
abbrev S128x192 : Shape := ⟨2, ![128, 192]⟩
abbrev S4096x192 : Shape := ⟨2, ![4096, 192]⟩
abbrev S192x4096 : Shape := ⟨2, ![192, 4096]⟩
abbrev S128x4096 : Shape := ⟨2, ![128, 4096]⟩
abbrev S128 : Shape := ⟨1, ![128]⟩
abbrev S128x1 : Shape := ⟨2, ![128, 1]⟩

abbrev nBuf : Space → Nat
  | .hbm => 13
  | .vmem => 26
  | .smem => 0
  | _ => 0

abbrev bufTy : (tb : Table) → Fin (tcTables nBuf tb) → BufTy
  | .hbm, ⟨0, _⟩ => ⟨S4x4096x192, .f32⟩
  | .hbm, ⟨1, _⟩ => ⟨S4x4096x192, .f32⟩
  | .hbm, ⟨2, _⟩ => ⟨S4x4096x192, .f32⟩
  | .hbm, ⟨3, _⟩ => ⟨S4x4096x4096, .f32⟩
  | .hbm, ⟨4, _⟩ => ⟨S4x4096x4096, .f32⟩
  | .hbm, ⟨5, _⟩ => ⟨S192x192, .f32⟩
  | .hbm, ⟨6, _⟩ => ⟨S192x192, .f32⟩
  | .hbm, ⟨7, _⟩ => ⟨S192x192, .f32⟩
  | .hbm, ⟨8, _⟩ => ⟨S192x192, .f32⟩
  | .hbm, ⟨9, _⟩ => ⟨S4x4096x192, .bf16⟩
  | .hbm, ⟨10, _⟩ => ⟨S4x4096x192, .bf16⟩
  | .hbm, ⟨11, _⟩ => ⟨S4x4096x192, .f32⟩
  | .hbm, ⟨12, _⟩ => ⟨S4x4096x4096, .f32⟩
  | .local _ .vmem, ⟨0, _⟩ => ⟨S1x512x192, .f32⟩
  | .local _ .vmem, ⟨1, _⟩ => ⟨S1x512x192, .f32⟩
  | .local _ .vmem, ⟨2, _⟩ => ⟨S1x512x192, .f32⟩
  | .local _ .vmem, ⟨3, _⟩ => ⟨S1x512x192, .f32⟩
  | .local _ .vmem, ⟨4, _⟩ => ⟨S192x192, .f32⟩
  | .local _ .vmem, ⟨5, _⟩ => ⟨S192x192, .f32⟩
  | .local _ .vmem, ⟨6, _⟩ => ⟨S1x512x192, .bf16⟩
  | .local _ .vmem, ⟨7, _⟩ => ⟨S1x512x192, .bf16⟩
  | .local _ .vmem, ⟨8, _⟩ => ⟨S1x512x192, .bf16⟩
  | .local _ .vmem, ⟨9, _⟩ => ⟨S1x512x192, .bf16⟩
  | .local _ .vmem, ⟨10, _⟩ => ⟨S1x128x192, .f32⟩
  | .local _ .vmem, ⟨11, _⟩ => ⟨S1x128x192, .f32⟩
  | .local _ .vmem, ⟨12, _⟩ => ⟨S1x4096x192, .bf16⟩
  | .local _ .vmem, ⟨13, _⟩ => ⟨S1x4096x192, .bf16⟩
  | .local _ .vmem, ⟨14, _⟩ => ⟨S1x4096x192, .bf16⟩
  | .local _ .vmem, ⟨15, _⟩ => ⟨S1x4096x192, .bf16⟩
  | .local _ .vmem, ⟨16, _⟩ => ⟨S1x128x4096, .f32⟩
  | .local _ .vmem, ⟨17, _⟩ => ⟨S1x128x4096, .f32⟩
  | .local _ .vmem, ⟨18, _⟩ => ⟨S1x128x4096, .f32⟩
  | .local _ .vmem, ⟨19, _⟩ => ⟨S1x128x4096, .f32⟩
  | .local _ .vmem, ⟨20, _⟩ => ⟨S192x192, .f32⟩
  | .local _ .vmem, ⟨21, _⟩ => ⟨S192x192, .f32⟩
  | .local _ .vmem, ⟨22, _⟩ => ⟨S1x128x192, .f32⟩
  | .local _ .vmem, ⟨23, _⟩ => ⟨S1x128x192, .f32⟩
  | .local _ .vmem, ⟨24, _⟩ => ⟨S1x128x4096, .f32⟩
  | .local _ .vmem, ⟨25, _⟩ => ⟨S1x128x4096, .f32⟩
  | _, _ => ⟨S4x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S192x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S192x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S1x512x192_S1x512x192_0_0_0 : ∀ a, (![0, 0, 0] : Fin 3 → Nat) a + S1x512x192.size a ≤ S1x512x192.size a
  h_S1x512x192 : 0 < S1x512x192.numel
  shapeCasts_S1x512x192_S512x192 : S1x512x192.ShapeCasts S512x192
  bitsLt_bf16_f32 : FTy.bits .bf16 < FTy.bits .f32
  inb_S192x192_S192x192_0_0 : ∀ a, (![0, 0] : Fin 2 → Nat) a + S192x192.size a ≤ S192x192.size a
  h_S192x192 : 0 < S192x192.numel
  transposes_S192x192_p1_0_S192x192 : S192x192.Transposes [1, 0] S192x192
  shapeCasts_S512x192_S1x512x192 : S512x192.ShapeCasts S1x512x192
  packedbf16_S1x512x192_S1x512x192_0_0_0 : (Rect.unit (s := S1x512x192) ![0, 0, 0] S1x512x192.size inb_S1x512x192_S1x512x192_0_0_0).PackedRows (EltTy.packing .bf16)
  inb_S1x128x192_S1x128x192_0_0_0 : ∀ a, (![0, 0, 0] : Fin 3 → Nat) a + S1x128x192.size a ≤ S1x128x192.size a
  h_S1x128x192 : 0 < S1x128x192.numel
  shapeCasts_S1x128x192_S128x192 : S1x128x192.ShapeCasts S128x192
  inb_S1x4096x192_S1x4096x192_0_0_0 : ∀ a, (![0, 0, 0] : Fin 3 → Nat) a + S1x4096x192.size a ≤ S1x4096x192.size a
  h_S1x4096x192 : 0 < S1x4096x192.numel
  shapeCasts_S1x4096x192_S4096x192 : S1x4096x192.ShapeCasts S4096x192
  transposes_S4096x192_p1_0_S192x4096 : S4096x192.Transposes [1, 0] S192x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x4096_S128 : S128x4096.Reduces [1] S128
  shapeCasts_S128_S128x1 : S128.ShapeCasts S128x1
  broadcasts_S128x1_S128x4096 : S128x1.Broadcasts S128x4096
  shapeCasts_S128x4096_S1x128x4096 : S128x4096.ShapeCasts S1x128x4096
  shapeCasts_S128x192_S1x128x192 : S128x192.ShapeCasts S1x128x192
  dot_S512x192_S192x192_S512x192_1_0_0_1_n_n_wf : DotDims.WF S512x192 S192x192 S512x192 [1] [0] [0] [1] [] []
  dot_S128x192_S192x192_S128x192_1_0_0_1_n_n_wf : DotDims.WF S128x192 S192x192 S128x192 [1] [0] [0] [1] [] []
  dot_S128x192_S192x4096_S128x4096_1_0_0_1_n_n_wf : DotDims.WF S128x192 S192x4096 S128x4096 [1] [0] [0] [1] [] []
  dot_S128x4096_S4096x192_S128x192_1_0_0_1_n_n_wf : DotDims.WF S128x4096 S4096x192 S128x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x192.size a ≤ S4x4096x192.size a
  hwx0_0 : ∀ i : grid0.Coords, EltTy.bits .f32 = 32 ∨ (Rect.block (s := S4x4096x192) S1x512x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x192.size a ≤ S4x4096x192.size a
  hwx0_1 : ∀ i : grid0.Coords, EltTy.bits .f32 = 32 ∨ (Rect.block (s := S4x4096x192) S1x512x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x192.size a ≤ S192x192.size a
  hwx0_2 : ∀ i : grid0.Coords, EltTy.bits .f32 = 32 ∨ (Rect.block (s := S192x192) S192x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .f32 = 32 ∨ (Rect.block (s := S192x192) S192x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x192.size a ≤ S4x4096x192.size a
  hwx0_4 : ∀ i : grid0.Coords, EltTy.bits .bf16 = 32 ∨ (Rect.block (s := S4x4096x192) S1x512x192.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x192.size a ≤ S4x4096x192.size a
  hwx0_5 : ∀ i : grid0.Coords, EltTy.bits .bf16 = 32 ∨ (Rect.block (s := S4x4096x192) S1x512x192.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x192.size a ≤ S4x4096x192.size a
  hwx1_0 : ∀ i : grid1.Coords, EltTy.bits .f32 = 32 ∨ (Rect.block (s := S4x4096x192) S1x128x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x192.size a ≤ S4x4096x192.size a
  hwx1_1 : ∀ i : grid1.Coords, EltTy.bits .bf16 = 32 ∨ (Rect.block (s := S4x4096x192) S1x4096x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x192.size a ≤ S4x4096x192.size a
  hwx1_2 : ∀ i : grid1.Coords, EltTy.bits .bf16 = 32 ∨ (Rect.block (s := S4x4096x192) S1x4096x192.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x4096.size a ≤ S4x4096x4096.size a
  hwx1_3 : ∀ i : grid1.Coords, EltTy.bits .f32 = 32 ∨ (Rect.block (s := S4x4096x4096) S1x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x4096.size a ≤ S4x4096x4096.size a
  hwx1_4 : ∀ i : grid1.Coords, EltTy.bits .f32 = 32 ∨ (Rect.block (s := S4x4096x4096) S1x128x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192x192.size a ≤ S192x192.size a
  hwx1_5 : ∀ i : grid1.Coords, EltTy.bits .f32 = 32 ∨ (Rect.block (s := S192x192) S192x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S192x192.size a ≤ S192x192.size a
  hwx1_6 : ∀ i : grid1.Coords, EltTy.bits .f32 = 32 ∨ (Rect.block (s := S192x192) S192x192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x192.size a ≤ S4x4096x192.size a
  hwx1_7 : ∀ i : grid1.Coords, EltTy.bits .f32 = 32 ∨ (Rect.block (s := S4x4096x192) S1x128x192.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128x4096.size a ≤ S4x4096x4096.size a
  hwx1_8 : ∀ i : grid1.Coords, EltTy.bits .f32 = 32 ∨ (Rect.block (s := S4x4096x4096) S1x128x4096.size (cc1_transform_8 i) (hinb1_8 i)).WholeWords (EltTy.packing .f32)

variable [Facts₀]

def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S128x192_S192x192_S128x192_1_0_0_1_n_n : DotDims S128x192 S192x192 S128x192 where
  lhsContracting := [1]
  rhsContracting := [0]
  lhsNonContracting := [0]
  rhsNonContracting := [1]
  lhsBatch := []
  rhsBatch := []
  wf := dot_S128x192_S192x192_S128x192_1_0_0_1_n_n_wf
def dot_S128x192_S192x4096_S128x4096_1_0_0_1_n_n : DotDims S128x192 S192x4096 S128x4096 where
  lhsContracting := [1]
  rhsContracting := [0]
  lhsNonContracting := [0]
  rhsNonContracting := [1]
  lhsBatch := []
  rhsBatch := []
  wf := dot_S128x192_S192x4096_S128x4096_1_0_0_1_n_n_wf
def dot_S128x4096_S4096x192_S128x192_1_0_0_1_n_n : DotDims S128x4096 S4096x192 S128x192 where
  lhsContracting := [1]
  rhsContracting := [0]
  lhsNonContracting := [0]
  rhsNonContracting := [1]
  lhsBatch := []
  rhsBatch := []
  wf := dot_S128x4096_S4096x192_S128x192_1_0_0_1_n_n_wf

abbrev win0_0 : Pipeline.Window sig grid0 :=
  Pipeline.Window.ofSpec (Memref.whole main_arg1) S1x512x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S192x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x128x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x4096x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x4096x192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1x128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S192x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S192x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1_0) S1x128x192.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_1) S1x128x4096.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x4096x192 : Shape := ⟨3, ![4, 4096, 192]⟩
abbrev S4x4096x4096 : Shape := ⟨3, ![4, 4096, 4096]⟩
abbrev S192x192 : Shape := ⟨2, ![192, 192]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x192, .f32⟩
  | .hbm, ⟨1, _⟩ => ⟨S4x4096x192, .f32⟩
  | .hbm, ⟨2, _⟩ => ⟨S4x4096x192, .f32⟩
  | .hbm, ⟨3, _⟩ => ⟨S4x4096x4096, .f32⟩
  | .hbm, ⟨4, _⟩ => ⟨S4x4096x4096, .f32⟩
  | .hbm, ⟨5, _⟩ => ⟨S192x192, .f32⟩
  | .hbm, ⟨6, _⟩ => ⟨S192x192, .f32⟩
  | .hbm, ⟨7, _⟩ => ⟨S192x192, .f32⟩
  | .hbm, ⟨8, _⟩ => ⟨S192x192, .f32⟩
  | .hbm, ⟨9, _⟩ => ⟨S4x4096x192, .f32⟩
  | .hbm, ⟨10, _⟩ => ⟨S4x4096x192, .f32⟩
  | .hbm, ⟨11, _⟩ => ⟨S4x4096x192, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x192, .f32⟩
  | .hbm, ⟨33, _⟩ => ⟨S4x4096x192, .f32⟩
  | _, _ => ⟨S4x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x192_S192x192_S4x4096x192_2_1_01_0_n_n_wf : DotDims.WF S4x4096x192 S192x192 S4x4096x192 [2] [1] [0, 1] [0] [] []
  dot_S4x4096x192_S4x4096x192_S4x4096x4096_2_2_1_1_0_0_wf : DotDims.WF S4x4096x192 S4x4096x192 S4x4096x4096 [2] [2] [1] [1] [0] [0]
  dot_S4x4096x4096_S4x4096x192_S4x4096x192_2_1_1_2_0_0_wf : DotDims.WF S4x4096x4096 S4x4096x192 S4x4096x192 [2] [1] [1] [2] [0] [0]

variable [Facts₀]

def dot_S4x4096x192_S192x192_S4x4096x192_2_1_01_0_n_n : DotDims S4x4096x192 S192x192 S4x4096x192 where
  lhsContracting := [2]
  rhsContracting := [1]
  lhsNonContracting := [0, 1]
  rhsNonContracting := [0]
  lhsBatch := []
  rhsBatch := []
  wf := dot_S4x4096x192_S192x192_S4x4096x192_2_1_01_0_n_n_wf
def dot_S4x4096x192_S4x4096x192_S4x4096x4096_2_2_1_1_0_0 : DotDims S4x4096x192 S4x4096x192 S4x4096x4096 where
  lhsContracting := [2]
  rhsContracting := [2]
  lhsNonContracting := [1]
  rhsNonContracting := [1]
  lhsBatch := [0]
  rhsBatch := [0]
  wf := dot_S4x4096x192_S4x4096x192_S4x4096x4096_2_2_1_1_0_0_wf
def dot_S4x4096x4096_S4x4096x192_S4x4096x192_2_1_1_2_0_0 : DotDims S4x4096x4096 S4x4096x192 S4x4096x192 where
  lhsContracting := [2]
  rhsContracting := [1]
  lhsNonContracting := [1]
  rhsNonContracting := [2]
  lhsBatch := [0]
  rhsBatch := [0]
  wf := dot_S4x4096x4096_S4x4096x192_S4x4096x192_2_1_1_2_0_0_wf

class Facts : Prop extends Facts₀ where

variable [Facts]
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.ProjBlock.lean ====
/-
  The projection kernel's body, read at an entry.

  One grid point of the first call holds a [1, 512, 192] block x of rows and the whole [192, 192] matrix w, and stores
  (x as 512×192)·wᵀ back as a [1, 512, 192] block: entry (·, r, e) is the sum over d of x[0, r, d] · w[e, d]. The
  changes of float format on the way are the identity at the ideal instance, the unit axis is dropped before and put
  back after the product, and the product accumulates into zero. The key block and the value block go through the same
  function.
-/
import proofs.«418285_j43267500540482_3_alg».proof.Proof.Gen.KernelIdeal.Skeleton
import proofs.«418285_j43267500540482_3_alg».proof.Proof.LibMatmulPlain
import Idealize.ShloMosaic.Lib.ValueLayout

noncomputable section

namespace Cert.KernelIdeal.Block

open Cert.KernelIdeal Cert.KernelIdeal.Gen Cert.LibMatmulPlain
open Idealize.ShloMosaic Idealize.ShloMosaic.ValueIdx
open scoped BigOperators

/-- The product's dimension record is the plain 512×192 by 192×192 one. -/
theorem dims_rows512 : dot_S512x192_S192x192_S512x192_1_0_0_1_n_n = DotDims.plain 512 192 192 := rfl

/-- The stored key block at (u, r, e): row r of the loaded block against row e of the matrix. -/
theorem k0_pay1_apply (x : Vec Ideal S1x512x192 .f32) (w : Vec Ideal S192x192 .f32) (u : Fin 1) (r : Fin 512) (e : Fin 192) :
    k0_pay1 (F := Ideal) x w (ix3 u r e) = ∑ d : Fin 192, x (ix3 (0 : Fin 1) r d) * w (ix2 e d) := by
  unfold k0_pay1
  dsimp only
  rw [shapeCast_ab_1ab_apply, truncf_apply, dims_rows512, matmul_plain_transpose_apply]
  refine Finset.sum_congr rfl fun d _ => ?_
  rw [truncf_apply, shapeCast_1ab_ab_apply, truncf_apply]

/-- The stored value block is the same function of its loads. -/
theorem k0_pay2_apply (x : Vec Ideal S1x512x192 .f32) (w : Vec Ideal S192x192 .f32) (u : Fin 1) (r : Fin 512) (e : Fin 192) :
    k0_pay2 (F := Ideal) x w (ix3 u r e) = ∑ d : Fin 192, x (ix3 (0 : Fin 1) r d) * w (ix2 e d) :=
  k0_pay1_apply x w u r e

end Cert.KernelIdeal.Block

end
-- ==== Proof.AttnSpec.lean ====
/-
  Single-head attention with linear projections, as ONE function of the nine argument arrays, index by index,
  on the extended reals.

  With x·Wᵀ written `proj x W` (entry (b, n, e) is the sum over d of x[b, n, d] · W[e, d]):
    q = proj query q_w,   k = proj key k_w,   v = proj value v_w,
    score[b, r, s]   = (Σ_e q[b, r, e] · k[b, s, e] + bias[b, r, s]) + mask[b, r, s] · c      (c the literal −10⁹),
    weights[b, r, s] = exp (score[b, r, s] − M[b, r]) / Σ_s' exp (score[b, r, s'] − M[b, r]),
                       M[b, r] the maximum over s of score[b, r, s], folded from the literal −∞,
    out              = proj (Σ_s weights[b, r, s] · v[b, s, e]) o_w.
  Every sum is a finite sum in the commutative monoid of the extended reals, so no order or grouping is part
  of the definition; the quotient is the total division of the ideal instance, the exponential its total
  exponential. Nothing here evaluates a literal: the two literals stay as their bit patterns.
-/
import Idealize.ShloMosaic.PureOps.Ideal
import Idealize.ShloMosaic.Lib.ValueIdx

noncomputable section

namespace Cert.AttnSpec

open Idealize.ShloMosaic Idealize.ShloMosaic.ValueIdx
open scoped BigOperators

/-- [batch, position, feature]. -/
abbrev A3 : Shape := ⟨3, ![4, 4096, 192]⟩
/-- [batch, query position, key position]. -/
abbrev A33 : Shape := ⟨3, ![4, 4096, 4096]⟩
/-- A weight matrix, [output feature, input feature]. -/
abbrev A2 : Shape := ⟨2, ![192, 192]⟩

/-- The additive penalty of a masked position: the literal −10⁹, as its pattern. -/
def negBig : EReal := Ideal.ofBits .f32 0xCE6E6B28#32
/-- What a row maximum is folded from: the literal −∞, as its pattern. -/
def negInf : EReal := Ideal.ofBits .f32 0xFF800000#32

/-- Entry (b, n, e) of x·Wᵀ. -/
def projAt (x : A3.Idx → EReal) (w : A2.Idx → EReal) (b : Fin 4) (n : Fin 4096) (e : Fin 192) : EReal :=
  ∑ d : Fin 192, x (ix3 b n d) * w (ix2 e d)

/-- x·Wᵀ, batch by batch. -/
def proj (x : A3.Idx → EReal) (w : A2.Idx → EReal) : A3.Idx → EReal := fun i => projAt x w (i 0) (i 1) (i 2)

theorem proj_ix3 (x : A3.Idx → EReal) (w : A2.Idx → EReal) (b : Fin 4) (n : Fin 4096) (e : Fin 192) :
    proj x w (ix3 b n e) = projAt x w b n e := rfl

/-- The score of key position s for query position r of batch b: the dot product of the projected query and key
    rows, plus the bias, plus the mask times the penalty — in this grouping. -/
def scoreAt (q k : A3.Idx → EReal) (bias mask : A33.Idx → EReal) (b : Fin 4) (r s : Fin 4096) : EReal :=
  (∑ e : Fin 192, q (ix3 b r e) * k (ix3 b s e) + bias (ix3 b r s)) + mask (ix3 b r s) * negBig

/-- A row's maximum, folded from −∞. -/
def rowMax (f : Fin 4096 → EReal) : EReal := (Finset.univ : Finset (Fin 4096)).fold max negInf f

/-- The softmax of one row: each entry's exponential of its distance to the row maximum, over the sum of these. -/
def softmaxRow (f : Fin 4096 → EReal) (s : Fin 4096) : EReal :=
  Ideal.div (Ideal.exp (f s - rowMax f)) (∑ s' : Fin 4096, Ideal.exp (f s' - rowMax f))

/-- The attention weights from projected queries and keys. -/
def weights (q k : A3.Idx → EReal) (bias mask : A33.Idx → EReal) : A33.Idx → EReal :=
  fun i => softmaxRow (scoreAt q k bias mask (i 0) (i 1)) (i 2)

theorem weights_ix3 (q k : A3.Idx → EReal) (bias mask : A33.Idx → EReal) (b : Fin 4) (r s : Fin 4096) :
    weights q k bias mask (ix3 b r s) = softmaxRow (scoreAt q k bias mask b r) s := rfl

/-- Entry (b, r, e) of weights·v. -/
def mixAt (w : A33.Idx → EReal) (v : A3.Idx → EReal) (b : Fin 4) (r : Fin 4096) (e : Fin 192) : EReal :=
  ∑ s : Fin 4096, w (ix3 b r s) * v (ix3 b s e)

/-- weights·v, batch by batch. -/
def mix (w : A33.Idx → EReal) (v : A3.Idx → EReal) : A3.Idx → EReal := fun i => mixAt w v (i 0) (i 1) (i 2)

theorem mix_ix3 (w : A33.Idx → EReal) (v : A3.Idx → EReal) (b : Fin 4) (r : Fin 4096) (e : Fin 192) :
    mix w v (ix3 b r e) = mixAt w v b r e := rfl

/-- The second result: the attention weights of the raw arguments. -/
def attnWeights (query key : A3.Idx → EReal) (mask bias : A33.Idx → EReal) (q_w k_w : A2.Idx → EReal) : A33.Idx → EReal :=
  weights (proj query q_w) (proj key k_w) bias mask

/-- The first result: the weighted values, projected by the output matrix. -/
def attnOut (query key value : A3.Idx → EReal) (mask bias : A33.Idx → EReal) (q_w k_w v_w o_w : A2.Idx → EReal) :
    A3.Idx → EReal :=
  proj (mix (attnWeights query key mask bias q_w k_w) (proj value v_w)) o_w

/-- A maximum folded from a start value is at least that value: taking the maximum with the start value again
    changes nothing. -/
theorem max_rowMax (f : Fin 4096 → EReal) : max negInf (rowMax f) = rowMax f :=
  max_eq_right (Finset.le_fold_max negInf |>.mpr (Or.inl le_rfl))

end Cert.AttnSpec

end
-- ==== Proof.ProjRegion.lean ====
/-
  The first call, from blocks to arrays: it leaves x·Wᵀ in each of its two result arrays.

  The grid is 4 batches × 8 row blocks. At a point (b, k) the key (or value) window holds rows 512k … 512k + 511 of batch
  b, the matrix windows hold their whole matrices, and the output windows' blocks sit at the same (b, k). So the block a
  point writes back is that block of the whole-array function `proj` of the arrays the call was entered with; the 32
  blocks tile the [4, 4096, 192] array (row n of batch b is in block (b, n / 512)), hence after the last write-back the
  array holds `proj`. Stated for any entry contents `V`.
-/
import proofs.«418285_j43267500540482_3_alg».proof.Proof.Gen.KernelIdeal.Frame
import proofs.«418285_j43267500540482_3_alg».proof.Proof.ProjBlock
import proofs.«418285_j43267500540482_3_alg».proof.Proof.AttnSpec
import Idealize.ShloMosaic.Lib.Pipeline.Value

set_option maxRecDepth 16384

noncomputable section

namespace Cert.KernelIdeal.Region0

open Cert.KernelIdeal Cert.KernelIdeal.Gen Cert.KernelIdeal.Block Cert.AttnSpec
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the 32 grid points: the two row windows and the second output window move with the
    first output window; the matrix windows stay at the origin; the output's block indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (1 : Fin 3)
    ∧ win0_1.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 7 ∧ win0_4.index t (2 : Fin 3) = 0 :=
  (by decide +kernel : ∀ t : Fin grid0.N, _)

/-- Every (batch, row block) is some point's. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## The input blocks as rows of the arrays -/

/-- The key window's block at point t is rows 512k … of batch b of the first operand's array. -/
theorem key_rows (c : Dev nD) (t : Fin cfg0.N) (y : S1x512x192.Idx) (k : S4x4096x192.Idx)
    (h0 : (k 0).val = win0_4.index t (0 : Fin 3)) (h1 : (k 1).val = win0_4.index t (1 : Fin 3) * 512 + (y 1).val)
    (h2 : (k 2).val = (y 2).val) :
    (iblk0 V c 0 t : Vec Ideal S1x512x192 .f32) y = (V c main_arg1 : S4x4096x192.Idx → EReal) k := by
  obtain ⟨e0, e1, e2, -⟩ := idx_facts t
  unfold iblk0
  rw [View.read_apply]
  show V c main_arg1 _ = V c main_arg1 _
  congr 1
  funext a
  apply Fin.ext
  have hy0 : (y 0).val < 1 := (y 0).isLt
  match a with
  | ⟨0, _⟩ => show win0_0.index t (0 : Fin 3) * 1 + 1 * (y 0).val = (k 0).val; omega
  | ⟨1, _⟩ => show win0_0.index t (1 : Fin 3) * 512 + 1 * (y 1).val = (k 1).val; omega
  | ⟨2, _⟩ => show win0_0.index t (2 : Fin 3) * 192 + 1 * (y 2).val = (k 2).val; omega

/-- The value window's block likewise, of the second operand's array. -/
theorem value_rows (c : Dev nD) (t : Fin cfg0.N) (y : S1x512x192.Idx) (k : S4x4096x192.Idx)
    (h0 : (k 0).val = win0_4.index t (0 : Fin 3)) (h1 : (k 1).val = win0_4.index t (1 : Fin 3) * 512 + (y 1).val)
    (h2 : (k 2).val = (y 2).val) :
    (iblk0 V c 1 t : Vec Ideal S1x512x192 .f32) y = (V c main_arg2 : S4x4096x192.Idx → EReal) k := by
  obtain ⟨-, -, -, e0, e1, e2, -⟩ := idx_facts t
  unfold iblk0
  rw [View.read_apply]
  show V c main_arg2 _ = V c main_arg2 _
  congr 1
  funext a
  apply Fin.ext
  have hy0 : (y 0).val < 1 := (y 0).isLt
  match a with
  | ⟨0, _⟩ => show win0_1.index t (0 : Fin 3) * 1 + 1 * (y 0).val = (k 0).val; omega
  | ⟨1, _⟩ => show win0_1.index t (1 : Fin 3) * 512 + 1 * (y 1).val = (k 1).val; omega
  | ⟨2, _⟩ => show win0_1.index t (2 : Fin 3) * 192 + 1 * (y 2).val = (k 2).val; omega

/-- The key matrix window holds the whole matrix at every point. -/
theorem key_matrix (c : Dev nD) (t : Fin cfg0.N) (y : S192x192.Idx) :
    (iblk0 V c 2 t : Vec Ideal S192x192 .f32) y = (V c main_arg6 : S192x192.Idx → EReal) y := by
  obtain ⟨-, -, -, -, -, -, -, -, -, e0, e1, -⟩ := idx_facts t
  unfold iblk0
  rw [View.read_apply]
  show V c main_arg6 _ = V c main_arg6 _
  congr 1
  funext a
  apply Fin.ext
  match a with
  | ⟨0, _⟩ => show win0_2.index t (0 : Fin 2) * 192 + 1 * (y 0).val = (y 0).val; omega
  | ⟨1, _⟩ => show win0_2.index t (1 : Fin 2) * 192 + 1 * (y 1).val = (y 1).val; omega

/-- The value matrix window likewise. -/
theorem value_matrix (c : Dev nD) (t : Fin cfg0.N) (y : S192x192.Idx) :
    (iblk0 V c 3 t : Vec Ideal S192x192 .f32) y = (V c main_arg7 : S192x192.Idx → EReal) y := by
  obtain ⟨-, -, -, -, -, -, -, -, -, -, -, e0, e1, -⟩ := idx_facts t
  unfold iblk0
  rw [View.read_apply]
  show V c main_arg7 _ = V c main_arg7 _
  congr 1
  funext a
  apply Fin.ext
  match a with
  | ⟨0, _⟩ => show win0_3.index t (0 : Fin 2) * 192 + 1 * (y 0).val = (y 0).val; omega
  | ⟨1, _⟩ => show win0_3.index t (1 : Fin 2) * 192 + 1 * (y 1).val = (y 1).val; omega

/-! ## A block of the product is the product's block -/

/-- If x is rows 512R … of batch B of X and w is W, the body's block at y is `proj X W` at the array index
    (B, 512R + y₁, y₂). -/
theorem proj_block (X : S4x4096x192.Idx → EReal) (W : S192x192.Idx → EReal) (x : Vec Ideal S1x512x192 .f32)
    (w : Vec Ideal S192x192 .f32) (B R : ℕ)
    (hx : ∀ (y : S1x512x192.Idx) (k : S4x4096x192.Idx), (k 0).val = B → (k 1).val = R * 512 + (y 1).val → (k 2).val = (y 2).val →
      x y = X k)
    (hw : ∀ y : S192x192.Idx, w y = W y)
    (j : S1x512x192.Idx) (i : S4x4096x192.Idx) (hi0 : (i 0).val = B) (hi1 : (i 1).val = R * 512 + (j 1).val)
    (hi2 : (i 2).val = (j 2).val) :
    k0_pay1 (F := Ideal) x w j = proj X W i := by
  obtain ⟨u, r, e, rfl⟩ : ∃ (u : Fin 1) (r : Fin 512) (e : Fin 192), j = ix3 u r e := ⟨j 0, j 1, j 2, eq_ix3 j⟩
  obtain ⟨b, n, e', rfl⟩ : ∃ (b : Fin 4) (n : Fin 4096) (e' : Fin 192), i = ix3 b n e' := ⟨i 0, i 1, i 2, eq_ix3 i⟩
  have e2 : e = e' := Fin.ext hi2.symm
  subst e2
  rw [k0_pay1_apply, proj_ix3]
  unfold projAt
  refine Finset.sum_congr rfl fun d _ => ?_
  rw [hx (ix3 (0 : Fin 1) r d) (ix3 b n d) hi0 hi1 rfl, hw]

/-! ## What a point writes back -/

/-- Point t writes back its block of the projected keys. -/
theorem flushed_keys (c : Dev nD) (t : Fin cfg0.N) :
    (dat0 V c).flushed 4 t
      = ((cfg0.win 4).blk t).view.read (Elt Ideal) (proj (V c main_arg1 : S4x4096x192.Idx → EReal) (V c main_arg6 : S192x192.Idx → EReal)) := by
  show (cfg0.win 4).cut (grid0.coords t) ((dat0 V c).after 4 t) = _
  rw [after0_4]
  unfold out0_4
  rw [View.canon_unit_zero hz3]
  simp only [View.ld_unit_zero (S := S1x512x192) hz3, View.ld_unit_zero (S := S192x192) hz2]
  funext j
  have hj0 : (j 0).val < 1 := (j 0).isLt
  refine proj_block _ _ (iblk0 V c 0 t) (iblk0 V c 2 t) (win0_4.index t (0 : Fin 3)) (win0_4.index t (1 : Fin 3))
    (fun y k h0 h1 h2 => key_rows V c t y k h0 h1 h2) (fun y => key_matrix V c t y) j (((cfg0.win 4).blk t).view.emb j) ?_ ?_ ?_
  · show win0_4.index t (0 : Fin 3) * 1 + 1 * (j 0).val = win0_4.index t (0 : Fin 3); omega
  · show win0_4.index t (1 : Fin 3) * 512 + 1 * (j 1).val = win0_4.index t (1 : Fin 3) * 512 + (j 1).val; omega
  · obtain ⟨-, -, -, -, -, -, -, -, -, -, -, -, -, -, -, e2⟩ := idx_facts t
    show win0_4.index t (2 : Fin 3) * 192 + 1 * (j 2).val = (j 2).val; omega

/-- Point t writes back its block of the projected values. -/
theorem flushed_values (c : Dev nD) (t : Fin cfg0.N) :
    (dat0 V c).flushed 5 t
      = ((cfg0.win 5).blk t).view.read (Elt Ideal) (proj (V c main_arg2 : S4x4096x192.Idx → EReal) (V c main_arg7 : S192x192.Idx → EReal)) := by
  show (cfg0.win 5).cut (grid0.coords t) ((dat0 V c).after 5 t) = _
  rw [after0_5]
  unfold out0_5
  rw [View.canon_unit_zero hz3]
  simp only [View.ld_unit_zero (S := S1x512x192) hz3, View.ld_unit_zero (S := S192x192) hz2]
  funext j
  have hj0 : (j 0).val < 1 := (j 0).isLt
  obtain ⟨-, -, -, -, -, -, f0, f1, f2, -⟩ := idx_facts t
  refine proj_block _ _ (iblk0 V c 1 t) (iblk0 V c 3 t) (win0_4.index t (0 : Fin 3)) (win0_4.index t (1 : Fin 3))
    (fun y k h0 h1 h2 => value_rows V c t y k h0 h1 h2) (fun y => value_matrix V c t y) j (((cfg0.win 5).blk t).view.emb j) ?_ ?_ ?_
  · show win0_5.index t (0 : Fin 3) * 1 + 1 * (j 0).val = win0_4.index t (0 : Fin 3); omega
  · show win0_5.index t (1 : Fin 3) * 512 + 1 * (j 1).val = win0_4.index t (1 : Fin 3) * 512 + (j 1).val; omega
  · show win0_5.index t (2 : Fin 3) * 192 + 1 * (j 2).val = (j 2).val; omega

/-! ## The blocks tile the arrays -/

/-- An index is in point t's key-output block iff each coordinate is in the block's range. -/
theorem mem_blk_keys (t : Fin cfg0.N) (i : S4x4096x192.Idx) :
    i ∈ ((cfg0.win 4).blk t).view.set
      ↔ ∀ a : Fin 3, win0_4.index t a * S1x512x192.size a ≤ (i a).val ∧ (i a).val < win0_4.index t a * S1x512x192.size a + S1x512x192.size a := by
  show i ∈ ((View.whole main_v0_0).slice (win0_4.rect t)).set ↔ _
  rw [View.set_slice_whole, Rect.mem_set_unit]
  exact Iff.rfl

theorem mem_blk_values (t : Fin cfg0.N) (i : S4x4096x192.Idx) :
    i ∈ ((cfg0.win 5).blk t).view.set
      ↔ ∀ a : Fin 3, win0_5.index t a * S1x512x192.size a ≤ (i a).val ∧ (i a).val < win0_5.index t a * S1x512x192.size a + S1x512x192.size a := by
  show i ∈ ((View.whole main_v0_1).slice (win0_5.rect t)).set ↔ _
  rw [View.set_slice_whole, Rect.mem_set_unit]
  exact Iff.rfl

/-- Every index of the key-output array is in the block of the point at (its batch, its row / 512). -/
theorem cover_keys (i : S4x4096x192.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 192 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk_keys]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 192 ≤ (i 2).val ∧ (i 2).val < win0_4.index t (2 : Fin 3) * 192 + 192; omega

theorem cover_values (i : S4x4096x192.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 192 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  obtain ⟨-, -, -, -, -, -, f0, f1, f2, -⟩ := idx_facts t
  refine ⟨t, flush0_5 t, ?_⟩
  rw [mem_blk_values]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 192 ≤ (i 2).val ∧ (i 2).val < win0_5.index t (2 : Fin 3) * 192 + 192; omega

/-! ## The arrays after the call -/

/-- The first result array of the call ends at key·k_wᵀ of the entry contents. -/
theorem final_keys (c : Dev nD) :
    (dat0 V c).arrAt 4 cfg0.N = proj (V c main_arg1 : S4x4096x192.Idx → EReal) (V c main_arg6 : S192x192.Idx → EReal) :=
  (dat0 V c).arrAt_eq_of_cover 4 _ (fun t _ => flushed_keys V c t) cover_keys

/-- The second ends at value·v_wᵀ. -/
theorem final_values (c : Dev nD) :
    (dat0 V c).arrAt 5 cfg0.N = proj (V c main_arg2 : S4x4096x192.Idx → EReal) (V c main_arg7 : S192x192.Idx → EReal) :=
  (dat0 V c).arrAt_eq_of_cover 5 _ (fun t _ => flushed_values V c t) cover_values

end Cert.KernelIdeal.Region0

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.AttnBlock.lean ====
/-
  The attention kernel's body, read at an entry.

  One grid point of the second call holds a [1, 128, 192] block of query rows, the batch's whole [1, 4096, 192] blocks of
  projected keys and values, the [1, 128, 4096] blocks of bias and mask for these query rows, and the two [192, 192]
  matrices. With q = (query rows)·q_wᵀ, the body computes for query row r and key position s
      z[r, s] = (Σ_e q[r, e] · keys[s, e] + bias[r, s]) + mask[r, s] · c,
  takes each row's maximum (a lane reduction folded from −∞, cast to a column and broadcast back along the row), the
  exponentials of z minus that maximum, each row's sum of them (a lane reduction from zero, cast and broadcast the same
  way) and the quotient: the softmax of row r at s. It stores that, and stores ((softmax)·values)·o_wᵀ.
  Changes of float format are the identity at the ideal instance; every product accumulates into zero.
-/
import proofs.«418285_j43267500540482_3_alg».proof.Proof.Gen.KernelIdeal.Skeleton
import proofs.«418285_j43267500540482_3_alg».proof.Proof.LibMatmulPlain
import proofs.«418285_j43267500540482_3_alg».proof.Proof.LibKeepdims
import proofs.«418285_j43267500540482_3_alg».proof.Proof.AttnSpec
import Idealize.ShloMosaic.Lib.ValueLayout
import Idealize.ShloMosaic.PureOps.Ideal.Laws

noncomputable section

namespace Cert.KernelIdeal.Block

open Cert.KernelIdeal Cert.KernelIdeal.Gen Cert.LibMatmulPlain Cert.LibKeepdims Cert.AttnSpec
open Idealize.ShloMosaic Idealize.ShloMosaic.ValueIdx
open scoped BigOperators

/-- The three products' dimension records are plain ones. -/
theorem dims_q : dot_S128x192_S192x192_S128x192_1_0_0_1_n_n = DotDims.plain 128 192 192 := rfl
theorem dims_qk : dot_S128x192_S192x4096_S128x4096_1_0_0_1_n_n = DotDims.plain 128 192 4096 := rfl
theorem dims_pv : dot_S128x4096_S4096x192_S128x192_1_0_0_1_n_n = DotDims.plain 128 4096 192 := rfl

/-! ## The softmax of a block of rows -/

section Softmax

variable (z : FVec Ideal S128x4096 .f32) (hr : S128x4096.Reduces [1] S128) (hφ : FKind.Formats .f32)
  (hmax : (0xFF800000#32 : BitVec (FTy.bits .f32)) = FKind.maximumf.neutral .f32 hφ)
  (hadd : (0x00000000#32 : BitVec (FTy.bits .f32)) = FKind.add.neutral .f32 hφ)
  (hc : S128.ShapeCasts S128x1) (hb : S128x1.Broadcasts S128x4096)

/-- Inserting key position k into row index r gives the entry (r, k). -/
theorem lift_row (r : Fin 128) (k : Fin 4096) : hr.lift (ix1 r) k = ix2 r k :=
  funext fun a => Fin.ext (by match a with | ⟨0, _⟩ => rfl | ⟨1, _⟩ => rfl)

/-- The lane maximum of row r: the fold of `max` from −∞ over the row. -/
theorem rowMax_apply (r : Fin 128) :
    multiReduction .maximumf [1] S128 z 0xFF800000#32 hr hφ hmax (ix1 r) = rowMax (fun k => z (ix2 r k)) := by
  rw [Ideal.multiReduction_maximumf_single]
  have hf : (z ∘ hr.lift (ix1 r)) = fun (k : Fin 4096) => z (ix2 r k) :=
    funext fun (k : Fin 4096) => congrArg z (lift_row hr r k)
  rw [hf]
  rfl

/-- The exponential of an entry's distance to its row's maximum. -/
theorem expo_apply (r : Fin 128) (k : Fin 4096) :
    exp (subf z (broadcastTo S128x4096 (shapeCast S128x1 (multiReduction .maximumf [1] S128 z 0xFF800000#32 hr hφ hmax) hc) hb)) (ix2 r k)
      = Ideal.exp (z (ix2 r k) - rowMax (fun k => z (ix2 r k))) := by
  show Ideal.exp (z (ix2 r k)
    - broadcastTo S128x4096 (shapeCast S128x1 (multiReduction .maximumf [1] S128 z 0xFF800000#32 hr hφ hmax) hc) hb (ix2 r k)) = _
  rw [broadcastTo_a1_ab_apply, shapeCast_a_a1_apply, rowMax_apply]

/-- The whole softmax chain at (r, s). -/
theorem softmax_rows_apply (r : Fin 128) (s : Fin 4096) :
    divf (exp (subf z (broadcastTo S128x4096 (shapeCast S128x1 (multiReduction .maximumf [1] S128 z 0xFF800000#32 hr hφ hmax) hc) hb)))
      (broadcastTo S128x4096 (shapeCast S128x1 (multiReduction .add [1] S128
        (exp (subf z (broadcastTo S128x4096 (shapeCast S128x1 (multiReduction .maximumf [1] S128 z 0xFF800000#32 hr hφ hmax) hc) hb)))
        0x00000000#32 hr hφ hadd) hc) hb) (ix2 r s)
      = softmaxRow (fun k => z (ix2 r k)) s := by
  rw [divf_apply, expo_apply, broadcastTo_a1_ab_apply, shapeCast_a_a1_apply, Ideal.multiReduction_add_single]
  have hs : (∑ k : Fin (S128x4096.size 1),
        exp (subf z (broadcastTo S128x4096 (shapeCast S128x1 (multiReduction .maximumf [1] S128 z 0xFF800000#32 hr hφ hmax) hc) hb)) (hr.lift (ix1 r) k))
      = ∑ k : Fin 4096, Ideal.exp (z (ix2 r k) - rowMax (fun k => z (ix2 r k))) :=
    Finset.sum_congr rfl fun (k : Fin 4096) _ => by rw [lift_row hr r k, expo_apply]
  rw [hs]
  rfl

end Softmax

/-! ## The scores of a block of query rows -/

/-- The score of key position s for row r of the block, from the loaded blocks. -/
def blockScore (qb : S1x128x192.Idx → EReal) (qw : S192x192.Idx → EReal) (kb : S1x4096x192.Idx → EReal)
    (bias mask : S1x128x4096.Idx → EReal) (r : Fin 128) (s : Fin 4096) : EReal :=
  (∑ e : Fin 192, (∑ d : Fin 192, qb (ix3 (0 : Fin 1) r d) * qw (ix2 e d)) * kb (ix3 (0 : Fin 1) s e) + bias (ix3 (0 : Fin 1) r s))
    + mask (ix3 (0 : Fin 1) r s) * negBig

/-- The stored weights' payload at (r, s): the softmax of row r's scores. -/
theorem k1_pay4_apply (qb : Vec Ideal S1x128x192 .f32) (qw : Vec Ideal S192x192 .f32) (kb : Vec Ideal S1x4096x192 .bf16)
    (bias mask : Vec Ideal S1x128x4096 .f32) (r : Fin 128) (s : Fin 4096) :
    k1_pay4 (F := Ideal) qb qw kb bias mask (ix2 r s) = softmaxRow (blockScore qb qw kb bias mask r) s := by
  unfold k1_pay4
  dsimp only
  refine (softmax_rows_apply _ _ _ _ _ _ _ r s).trans ?_
  refine congrArg (fun f => softmaxRow f s) (funext fun k => ?_)
  rw [addf_apply, addf_apply, mulf_apply, broadcast_apply, shapeCast_1ab_ab_apply, shapeCast_1ab_ab_apply, dims_qk,
    matmul_plain_transpose_apply]
  unfold blockScore
  refine congrArg₂ (· + ·) (congrArg (· + _) (Finset.sum_congr rfl fun e _ => ?_)) rfl
  rw [shapeCast_1ab_ab_apply, truncf_apply, dims_q, matmul_plain_transpose_apply]
  refine congrArg (· * _) (Finset.sum_congr rfl fun d _ => ?_)
  rw [truncf_apply, shapeCast_1ab_ab_apply, truncf_apply]

/-! ## The other payloads -/

/-- The weights block as stored: the unit axis put back. -/
theorem k1_pay1_apply (p : FVec Ideal S128x4096 .f32) (u : Fin 1) (r : Fin 128) (s : Fin 4096) :
    k1_pay1 (F := Ideal) p (ix3 u r s) = p (ix2 r s) := by
  unfold k1_pay1
  rw [shapeCast_ab_1ab_apply]

/-- The values block as used: the unit axis dropped. -/
theorem k1_pay3_apply (vb : Vec Ideal S1x4096x192 .bf16) (k : Fin 4096) (e : Fin 192) :
    k1_pay3 (F := Ideal) vb (ix2 k e) = vb (ix3 (0 : Fin 1) k e) := by
  unfold k1_pay3
  rw [shapeCast_1ab_ab_apply]

/-- The stored output block at (u, r, o): weights times values, times the output matrix transposed. -/
theorem k1_pay2_apply (v : FVec Ideal S4096x192 .bf16) (p : FVec Ideal S128x4096 .f32) (ow : Vec Ideal S192x192 .f32)
    (u : Fin 1) (r : Fin 128) (o : Fin 192) :
    k1_pay2 (F := Ideal) v p ow (ix3 u r o) = ∑ e : Fin 192, (∑ k : Fin 4096, p (ix2 r k) * v (ix2 k e)) * ow (ix2 o e) := by
  unfold k1_pay2
  dsimp only
  rw [shapeCast_ab_1ab_apply, dims_q, matmul_plain_transpose_apply]
  refine Finset.sum_congr rfl fun e _ => ?_
  rw [truncf_apply, dims_pv, matmul_plain_apply, truncf_apply]
  refine congrArg (· * _) (Finset.sum_congr rfl fun k _ => ?_)
  rw [truncf_apply]

end Cert.KernelIdeal.Block

end
-- ==== Proof.AttnRegion.lean ====
/-
  The second call, from blocks to arrays: it leaves the attention weights and the projected output in its two result
  arrays, as functions of the contents it was entered with.

  The grid is 4 batches × 32 blocks of 128 query rows. At a point (b, k) the query, bias and mask windows hold rows
  128k … 128k + 127 of batch b; the projected-key and projected-value windows hold all of batch b; the two matrix windows
  hold their whole matrices; both output windows' blocks sit at (b, k). The scores of a block's row are therefore the
  scores of the corresponding row of the whole arrays, so each stored block is that block of the whole-array weights
  (respectively of the projected weighted values), and the 128 blocks tile each result array.
  Stated for any entry contents `V`: the projected keys and values are whatever the entry contents hold there.
-/
import proofs.«418285_j43267500540482_3_alg».proof.Proof.Gen.KernelIdeal.Frame
import proofs.«418285_j43267500540482_3_alg».proof.Proof.AttnBlock
import proofs.«418285_j43267500540482_3_alg».proof.Proof.AttnSpec
import Idealize.ShloMosaic.Lib.Pipeline.Value

set_option maxRecDepth 16384

noncomputable section

namespace Cert.KernelIdeal.Region1

open Cert.KernelIdeal Cert.KernelIdeal.Gen Cert.KernelIdeal.Block Cert.AttnSpec
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the 128 grid points, all against the weights window (window 8): the query, bias, mask
    and output windows move with it; the projected-key and projected-value windows follow its batch and stay at row
    block 0; the matrix windows stay at the origin; its block indices stay in range. -/
theorem idx_facts : ∀ t : Fin cfg1.N,
    (win1_0.index t (0 : Fin 3) = win1_8.index t (0 : Fin 3) ∧ win1_0.index t (1 : Fin 3) = win1_8.index t (1 : Fin 3)
      ∧ win1_0.index t (2 : Fin 3) = 0)
    ∧ (win1_1.index t (0 : Fin 3) = win1_8.index t (0 : Fin 3) ∧ win1_1.index t (1 : Fin 3) = 0 ∧ win1_1.index t (2 : Fin 3) = 0)
    ∧ (win1_2.index t (0 : Fin 3) = win1_8.index t (0 : Fin 3) ∧ win1_2.index t (1 : Fin 3) = 0 ∧ win1_2.index t (2 : Fin 3) = 0)
    ∧ (win1_3.index t (0 : Fin 3) = win1_8.index t (0 : Fin 3) ∧ win1_3.index t (1 : Fin 3) = win1_8.index t (1 : Fin 3)
      ∧ win1_3.index t (2 : Fin 3) = 0)
    ∧ (win1_4.index t (0 : Fin 3) = win1_8.index t (0 : Fin 3) ∧ win1_4.index t (1 : Fin 3) = win1_8.index t (1 : Fin 3)
      ∧ win1_4.index t (2 : Fin 3) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 3) = win1_8.index t (0 : Fin 3) ∧ win1_7.index t (1 : Fin 3) = win1_8.index t (1 : Fin 3)
      ∧ win1_7.index t (2 : Fin 3) = 0)
    ∧ (win1_8.index t (0 : Fin 3) ≤ 3 ∧ win1_8.index t (1 : Fin 3) ≤ 31 ∧ win1_8.index t (2 : Fin 3) = 0) :=
  (by decide +kernel : ∀ t : Fin grid1.N, _)

/-- Every (batch, query block) is some point's. -/
theorem idx_onto : ∀ (q0 : Fin 4) (q1 : Fin 32), ∃ t : Fin cfg1.N, win1_8.index t = ![q0.val, q1.val, 0] :=
  (by decide +kernel : ∀ (q0 : Fin 4) (q1 : Fin 32), ∃ t : Fin grid1.N, win1_8.index t = ![q0.val, q1.val, 0])

/-! ## The input blocks as parts of the arrays -/

/-- The query window's block at point t: rows 128k … of batch b of the query array. -/
theorem query_rows (c : Dev nD) (t : Fin cfg1.N) (y : S1x128x192.Idx) (k : S4x4096x192.Idx)
    (h0 : (k 0).val = win1_8.index t (0 : Fin 3)) (h1 : (k 1).val = win1_8.index t (1 : Fin 3) * 128 + (y 1).val)
    (h2 : (k 2).val = (y 2).val) :
    (iblk1 V c 0 t : Vec Ideal S1x128x192 .f32) y = (V c main_arg0 : S4x4096x192.Idx → EReal) k := by
  obtain ⟨⟨e0, e1, e2⟩, -⟩ := idx_facts t
  unfold iblk1
  rw [View.read_apply]
  show V c main_arg0 _ = V c main_arg0 _
  congr 1
  funext a
  apply Fin.ext
  have hy0 : (y 0).val < 1 := (y 0).isLt
  match a with
  | ⟨0, _⟩ => show win1_0.index t (0 : Fin 3) * 1 + 1 * (y 0).val = (k 0).val; omega
  | ⟨1, _⟩ => show win1_0.index t (1 : Fin 3) * 128 + 1 * (y 1).val = (k 1).val; omega
  | ⟨2, _⟩ => show win1_0.index t (2 : Fin 3) * 192 + 1 * (y 2).val = (k 2).val; omega

/-- The projected-key window's block at point t: all of batch b of the first call's first result. -/
theorem keys_batch (c : Dev nD) (t : Fin cfg1.N) (y : S1x4096x192.Idx) (k : S4x4096x192.Idx)
    (h0 : (k 0).val = win1_8.index t (0 : Fin 3)) (h1 : (k 1).val = (y 1).val) (h2 : (k 2).val = (y 2).val) :
    (iblk1 V c 1 t : Vec Ideal S1x4096x192 .bf16) y = (V c main_v0_0 : S4x4096x192.Idx → EReal) k := by
  obtain ⟨-, ⟨e0, e1, e2⟩, -⟩ := idx_facts t
  unfold iblk1
  rw [View.read_apply]
  show V c main_v0_0 _ = V c main_v0_0 _
  congr 1
  funext a
  apply Fin.ext
  have hy0 : (y 0).val < 1 := (y 0).isLt
  match a with
  | ⟨0, _⟩ => show win1_1.index t (0 : Fin 3) * 1 + 1 * (y 0).val = (k 0).val; omega
  | ⟨1, _⟩ => show win1_1.index t (1 : Fin 3) * 4096 + 1 * (y 1).val = (k 1).val; omega
  | ⟨2, _⟩ => show win1_1.index t (2 : Fin 3) * 192 + 1 * (y 2).val = (k 2).val; omega

/-- The projected-value window's block likewise, of the first call's second result. -/
theorem values_batch (c : Dev nD) (t : Fin cfg1.N) (y : S1x4096x192.Idx) (k : S4x4096x192.Idx)
    (h0 : (k 0).val = win1_8.index t (0 : Fin 3)) (h1 : (k 1).val = (y 1).val) (h2 : (k 2).val = (y 2).val) :
    (iblk1 V c 2 t : Vec Ideal S1x4096x192 .bf16) y = (V c main_v0_1 : S4x4096x192.Idx → EReal) k := by
  obtain ⟨-, -, ⟨e0, e1, e2⟩, -⟩ := idx_facts t
  unfold iblk1
  rw [View.read_apply]
  show V c main_v0_1 _ = V c main_v0_1 _
  congr 1
  funext a
  apply Fin.ext
  have hy0 : (y 0).val < 1 := (y 0).isLt
  match a with
  | ⟨0, _⟩ => show win1_2.index t (0 : Fin 3) * 1 + 1 * (y 0).val = (k 0).val; omega
  | ⟨1, _⟩ => show win1_2.index t (1 : Fin 3) * 4096 + 1 * (y 1).val = (k 1).val; omega
  | ⟨2, _⟩ => show win1_2.index t (2 : Fin 3) * 192 + 1 * (y 2).val = (k 2).val; omega

/-- The bias window's block: rows 128k … of batch b of the bias array (the fifth argument). -/
theorem bias_rows (c : Dev nD) (t : Fin cfg1.N) (y : S1x128x4096.Idx) (k : S4x4096x4096.Idx)
    (h0 : (k 0).val = win1_8.index t (0 : Fin 3)) (h1 : (k 1).val = win1_8.index t (1 : Fin 3) * 128 + (y 1).val)
    (h2 : (k 2).val = (y 2).val) :
    (iblk1 V c 3 t : Vec Ideal S1x128x4096 .f32) y = (V c main_arg4 : S4x4096x4096.Idx → EReal) k := by
  obtain ⟨-, -, -, ⟨e0, e1, e2⟩, -⟩ := idx_facts t
  unfold iblk1
  rw [View.read_apply]
  show V c main_arg4 _ = V c main_arg4 _
  congr 1
  funext a
  apply Fin.ext
  have hy0 : (y 0).val < 1 := (y 0).isLt
  match a with
  | ⟨0, _⟩ => show win1_3.index t (0 : Fin 3) * 1 + 1 * (y 0).val = (k 0).val; omega
  | ⟨1, _⟩ => show win1_3.index t (1 : Fin 3) * 128 + 1 * (y 1).val = (k 1).val; omega
  | ⟨2, _⟩ => show win1_3.index t (2 : Fin 3) * 4096 + 1 * (y 2).val = (k 2).val; omega

/-- The mask window's block: the same rows of the mask array (the fourth argument). -/
theorem mask_rows (c : Dev nD) (t : Fin cfg1.N) (y : S1x128x4096.Idx) (k : S4x4096x4096.Idx)
    (h0 : (k 0).val = win1_8.index t (0 : Fin 3)) (h1 : (k 1).val = win1_8.index t (1 : Fin 3) * 128 + (y 1).val)
    (h2 : (k 2).val = (y 2).val) :
    (iblk1 V c 4 t : Vec Ideal S1x128x4096 .f32) y = (V c main_arg3 : S4x4096x4096.Idx → EReal) k := by
  obtain ⟨-, -, -, -, ⟨e0, e1, e2⟩, -⟩ := idx_facts t
  unfold iblk1
  rw [View.read_apply]
  show V c main_arg3 _ = V c main_arg3 _
  congr 1
  funext a
  apply Fin.ext
  have hy0 : (y 0).val < 1 := (y 0).isLt
  match a with
  | ⟨0, _⟩ => show win1_4.index t (0 : Fin 3) * 1 + 1 * (y 0).val = (k 0).val; omega
  | ⟨1, _⟩ => show win1_4.index t (1 : Fin 3) * 128 + 1 * (y 1).val = (k 1).val; omega
  | ⟨2, _⟩ => show win1_4.index t (2 : Fin 3) * 4096 + 1 * (y 2).val = (k 2).val; omega

/-- The query matrix window holds the whole matrix. -/
theorem query_matrix (c : Dev nD) (t : Fin cfg1.N) (y : S192x192.Idx) :
    (iblk1 V c 5 t : Vec Ideal S192x192 .f32) y = (V c main_arg5 : S192x192.Idx → EReal) y := by
  obtain ⟨-, -, -, -, -, ⟨e0, e1⟩, -⟩ := idx_facts t
  unfold iblk1
  rw [View.read_apply]
  show V c main_arg5 _ = V c main_arg5 _
  congr 1
  funext a
  apply Fin.ext
  match a with
  | ⟨0, _⟩ => show win1_5.index t (0 : Fin 2) * 192 + 1 * (y 0).val = (y 0).val; omega
  | ⟨1, _⟩ => show win1_5.index t (1 : Fin 2) * 192 + 1 * (y 1).val = (y 1).val; omega

/-- The output matrix window holds the whole matrix. -/
theorem out_matrix (c : Dev nD) (t : Fin cfg1.N) (y : S192x192.Idx) :
    (iblk1 V c 6 t : Vec Ideal S192x192 .f32) y = (V c main_arg8 : S192x192.Idx → EReal) y := by
  obtain ⟨-, -, -, -, -, -, ⟨e0, e1⟩, -⟩ := idx_facts t
  unfold iblk1
  rw [View.read_apply]
  show V c main_arg8 _ = V c main_arg8 _
  congr 1
  funext a
  apply Fin.ext
  match a with
  | ⟨0, _⟩ => show win1_6.index t (0 : Fin 2) * 192 + 1 * (y 0).val = (y 0).val; omega
  | ⟨1, _⟩ => show win1_6.index t (1 : Fin 2) * 192 + 1 * (y 1).val = (y 1).val; omega

/-! ## A block's rows are the arrays' rows -/

section Blocks

variable (Q KP VP : S4x4096x192.Idx → EReal) (BIAS MASK : S4x4096x4096.Idx → EReal) (QW OW : S192x192.Idx → EReal)
  (qb : Vec Ideal S1x128x192 .f32) (qw ow : Vec Ideal S192x192 .f32) (kb vb : Vec Ideal S1x4096x192 .bf16)
  (bias mask : Vec Ideal S1x128x4096 .f32) (B R : ℕ)
  (hq : ∀ (y : S1x128x192.Idx) (k : S4x4096x192.Idx), (k 0).val = B → (k 1).val = R * 128 + (y 1).val → (k 2).val = (y 2).val →
    qb y = Q k)
  (hqw : ∀ y : S192x192.Idx, qw y = QW y)
  (hk : ∀ (y : S1x4096x192.Idx) (k : S4x4096x192.Idx), (k 0).val = B → (k 1).val = (y 1).val → (k 2).val = (y 2).val → kb y = KP k)
  (hv : ∀ (y : S1x4096x192.Idx) (k : S4x4096x192.Idx), (k 0).val = B → (k 1).val = (y 1).val → (k 2).val = (y 2).val → vb y = VP k)
  (hb : ∀ (y : S1x128x4096.Idx) (k : S4x4096x4096.Idx), (k 0).val = B → (k 1).val = R * 128 + (y 1).val → (k 2).val = (y 2).val →
    bias y = BIAS k)
  (hm : ∀ (y : S1x128x4096.Idx) (k : S4x4096x4096.Idx), (k 0).val = B → (k 1).val = R * 128 + (y 1).val → (k 2).val = (y 2).val →
    mask y = MASK k)
  (how : ∀ y : S192x192.Idx, ow y = OW y)

include hq hqw hk hb hm in
/-- Row r of the block's scores is row 128R + r of batch B of the whole arrays' scores. -/
theorem score_rows (b : Fin 4) (n : Fin 4096) (r : Fin 128) (hb0 : b.val = B) (hn : n.val = R * 128 + r.val) :
    blockScore qb qw kb bias mask r = scoreAt (proj Q QW) KP BIAS MASK b n := by
  funext s
  unfold blockScore scoreAt
  rw [hb (ix3 (0 : Fin 1) r s) (ix3 b n s) hb0 hn rfl, hm (ix3 (0 : Fin 1) r s) (ix3 b n s) hb0 hn rfl]
  refine congrArg₂ (· + ·) (congrArg (· + _) (Finset.sum_congr rfl fun e _ => ?_)) rfl
  rw [hk (ix3 (0 : Fin 1) s e) (ix3 b s e) hb0 rfl rfl, proj_ix3]
  unfold projAt
  refine congrArg (· * _) (Finset.sum_congr rfl fun d _ => ?_)
  rw [hq (ix3 (0 : Fin 1) r d) (ix3 b n d) hb0 hn rfl, hqw]

include hq hqw hk hb hm in
/-- The stored weights block at j is the whole-array weights at the array index (B, 128R + j₁, j₂). -/
theorem weights_block (j : S1x128x4096.Idx) (i : S4x4096x4096.Idx) (hi0 : (i 0).val = B) (hi1 : (i 1).val = R * 128 + (j 1).val)
    (hi2 : (i 2).val = (j 2).val) :
    k1_pay1 (F := Ideal) (k1_pay4 (F := Ideal) qb qw kb bias mask) j = weights (proj Q QW) KP BIAS MASK i := by
  obtain ⟨u, r, s, rfl⟩ : ∃ (u : Fin 1) (r : Fin 128) (s : Fin 4096), j = ix3 u r s := ⟨j 0, j 1, j 2, eq_ix3 j⟩
  obtain ⟨b, n, s', rfl⟩ : ∃ (b : Fin 4) (n : Fin 4096) (s' : Fin 4096), i = ix3 b n s' := ⟨i 0, i 1, i 2, eq_ix3 i⟩
  have e2 : s = s' := Fin.ext hi2.symm
  subst e2
  rw [k1_pay1_apply, k1_pay4_apply, weights_ix3,
    score_rows Q KP BIAS MASK QW qb qw kb bias mask B R hq hqw hk hb hm b n r hi0 hi1]

include hq hqw hk hv hb hm how in
/-- The stored output block at j is the whole-array projected output at the array index (B, 128R + j₁, j₂). -/
theorem out_block (j : S1x128x192.Idx) (i : S4x4096x192.Idx) (hi0 : (i 0).val = B) (hi1 : (i 1).val = R * 128 + (j 1).val)
    (hi2 : (i 2).val = (j 2).val) :
    k1_pay2 (F := Ideal) (k1_pay3 (F := Ideal) vb) (k1_pay4 (F := Ideal) qb qw kb bias mask) ow j
      = proj (mix (weights (proj Q QW) KP BIAS MASK) VP) OW i := by
  obtain ⟨u, r, o, rfl⟩ : ∃ (u : Fin 1) (r : Fin 128) (o : Fin 192), j = ix3 u r o := ⟨j 0, j 1, j 2, eq_ix3 j⟩
  obtain ⟨b, n, o', rfl⟩ : ∃ (b : Fin 4) (n : Fin 4096) (o' : Fin 192), i = ix3 b n o' := ⟨i 0, i 1, i 2, eq_ix3 i⟩
  have e2 : o = o' := Fin.ext hi2.symm
  subst e2
  rw [k1_pay2_apply, proj_ix3]
  unfold projAt
  refine Finset.sum_congr rfl fun e _ => ?_
  rw [how, mix_ix3]
  unfold mixAt
  refine congrArg (· * _) (Finset.sum_congr rfl fun k _ => ?_)
  rw [k1_pay4_apply, k1_pay3_apply, hv (ix3 (0 : Fin 1) k e) (ix3 b k e) hi0 rfl rfl, weights_ix3,
    score_rows Q KP BIAS MASK QW qb qw kb bias mask B R hq hqw hk hb hm b n r hi0 hi1]

end Blocks

/-! ## What a point writes back -/

/-- The weights of the entry contents: queries projected here, keys as found. -/
abbrev weightsOf (c : Dev nD) : S4x4096x4096.Idx → EReal :=
  weights (proj (V c main_arg0 : S4x4096x192.Idx → EReal) (V c main_arg5 : S192x192.Idx → EReal))
    (V c main_v0_0 : S4x4096x192.Idx → EReal) (V c main_arg4 : S4x4096x4096.Idx → EReal) (V c main_arg3 : S4x4096x4096.Idx → EReal)

/-- The output of the entry contents: the weights times the values as found, projected by the output matrix. -/
abbrev outOf (c : Dev nD) : S4x4096x192.Idx → EReal :=
  proj (mix (weightsOf V c) (V c main_v0_1 : S4x4096x192.Idx → EReal)) (V c main_arg8 : S192x192.Idx → EReal)

/-- Point t writes back its block of the weights. -/
theorem flushed_weights (c : Dev nD) (t : Fin cfg1.N) :
    (dat1 V c).flushed 8 t = ((cfg1.win 8).blk t).view.read (Elt Ideal) (weightsOf V c) := by
  show (cfg1.win 8).cut (grid1.coords t) ((dat1 V c).after 8 t) = _
  rw [after1_8]
  unfold out1_8
  rw [View.canon_unit_zero hz3]
  simp only [View.ld_unit_zero (S := S1x128x192) hz3, View.ld_unit_zero (S := S192x192) hz2,
    View.ld_unit_zero (S := S1x4096x192) hz3, View.ld_unit_zero (S := S1x128x4096) hz3]
  funext j
  have hj0 : (j 0).val < 1 := (j 0).isLt
  obtain ⟨-, -, -, -, -, -, -, -, ⟨-, -, f2⟩⟩ := idx_facts t
  refine weights_block _ _ _ _ _ (iblk1 V c 0 t) (iblk1 V c 5 t) (iblk1 V c 1 t) (iblk1 V c 3 t) (iblk1 V c 4 t)
    (win1_8.index t (0 : Fin 3)) (win1_8.index t (1 : Fin 3))
    (fun y k h0 h1 h2 => query_rows V c t y k h0 h1 h2) (fun y => query_matrix V c t y)
    (fun y k h0 h1 h2 => keys_batch V c t y k h0 h1 h2)
    (fun y k h0 h1 h2 => bias_rows V c t y k h0 h1 h2) (fun y k h0 h1 h2 => mask_rows V c t y k h0 h1 h2)
    j (((cfg1.win 8).blk t).view.emb j) ?_ ?_ ?_
  · show win1_8.index t (0 : Fin 3) * 1 + 1 * (j 0).val = win1_8.index t (0 : Fin 3); omega
  · show win1_8.index t (1 : Fin 3) * 128 + 1 * (j 1).val = win1_8.index t (1 : Fin 3) * 128 + (j 1).val; omega
  · show win1_8.index t (2 : Fin 3) * 4096 + 1 * (j 2).val = (j 2).val; omega

/-- Point t writes back its block of the projected output. -/
theorem flushed_out (c : Dev nD) (t : Fin cfg1.N) :
    (dat1 V c).flushed 7 t = ((cfg1.win 7).blk t).view.read (Elt Ideal) (outOf V c) := by
  show (cfg1.win 7).cut (grid1.coords t) ((dat1 V c).after 7 t) = _
  rw [after1_7]
  unfold out1_7
  rw [View.canon_unit_zero hz3]
  simp only [View.ld_unit_zero (S := S1x128x192) hz3, View.ld_unit_zero (S := S192x192) hz2,
    View.ld_unit_zero (S := S1x4096x192) hz3, View.ld_unit_zero (S := S1x128x4096) hz3]
  funext j
  have hj0 : (j 0).val < 1 := (j 0).isLt
  obtain ⟨-, -, -, -, -, -, -, ⟨g0, g1, g2⟩, -⟩ := idx_facts t
  refine out_block _ _ _ _ _ _ _ (iblk1 V c 0 t) (iblk1 V c 5 t) (iblk1 V c 6 t) (iblk1 V c 1 t) (iblk1 V c 2 t)
    (iblk1 V c 3 t) (iblk1 V c 4 t) (win1_8.index t (0 : Fin 3)) (win1_8.index t (1 : Fin 3))
    (fun y k h0 h1 h2 => query_rows V c t y k h0 h1 h2) (fun y => query_matrix V c t y)
    (fun y k h0 h1 h2 => keys_batch V c t y k h0 h1 h2) (fun y k h0 h1 h2 => values_batch V c t y k h0 h1 h2)
    (fun y k h0 h1 h2 => bias_rows V c t y k h0 h1 h2) (fun y k h0 h1 h2 => mask_rows V c t y k h0 h1 h2)
    (fun y => out_matrix V c t y)
    j (((cfg1.win 7).blk t).view.emb j) ?_ ?_ ?_
  · show win1_7.index t (0 : Fin 3) * 1 + 1 * (j 0).val = win1_8.index t (0 : Fin 3); omega
  · show win1_7.index t (1 : Fin 3) * 128 + 1 * (j 1).val = win1_8.index t (1 : Fin 3) * 128 + (j 1).val; omega
  · show win1_7.index t (2 : Fin 3) * 192 + 1 * (j 2).val = (j 2).val; omega

/-! ## The blocks tile the arrays -/

theorem mem_blk_weights (t : Fin cfg1.N) (i : S4x4096x4096.Idx) :
    i ∈ ((cfg1.win 8).blk t).view.set
      ↔ ∀ a : Fin 3, win1_8.index t a * S1x128x4096.size a ≤ (i a).val ∧ (i a).val < win1_8.index t a * S1x128x4096.size a + S1x128x4096.size a := by
  show i ∈ ((View.whole main_v1_1).slice (win1_8.rect t)).set ↔ _
  rw [View.set_slice_whole, Rect.mem_set_unit]
  exact Iff.rfl

theorem mem_blk_out (t : Fin cfg1.N) (i : S4x4096x192.Idx) :
    i ∈ ((cfg1.win 7).blk t).view.set
      ↔ ∀ a : Fin 3, win1_7.index t a * S1x128x192.size a ≤ (i a).val ∧ (i a).val < win1_7.index t a * S1x128x192.size a + S1x128x192.size a := by
  show i ∈ ((View.whole main_v1_0).slice (win1_7.rect t)).set ↔ _
  rw [View.set_slice_whole, Rect.mem_set_unit]
  exact Iff.rfl

/-- Every index of the weights array is in the block of the point at (its batch, its query row / 128). -/
theorem cover_weights (i : S4x4096x4096.Idx) : ∃ t : Fin cfg1.N, (cfg1.win 8).flush t = true ∧ i ∈ ((cfg1.win 8).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 128, by omega⟩
  have q0 : win1_8.index t (0 : Fin 3) = (i 0).val := congrFun ht 0
  have q1 : win1_8.index t (1 : Fin 3) = (i 1).val / 128 := congrFun ht 1
  have q2 : win1_8.index t (2 : Fin 3) = 0 := congrFun ht 2
  refine ⟨t, flush1_8 t, ?_⟩
  rw [mem_blk_weights]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 128 ≤ (i 1).val ∧ (i 1).val < win1_8.index t (1 : Fin 3) * 128 + 128; omega
  | ⟨2, _⟩ => show win1_8.index t (2 : Fin 3) * 4096 ≤ (i 2).val ∧ (i 2).val < win1_8.index t (2 : Fin 3) * 4096 + 4096; omega

/-- Every index of the output array likewise. -/
theorem cover_out (i : S4x4096x192.Idx) : ∃ t : Fin cfg1.N, (cfg1.win 7).flush t = true ∧ i ∈ ((cfg1.win 7).blk t).view.set := by
  have hi0 : (i 0).val < 4 := (i 0).isLt
  have hi1 : (i 1).val < 4096 := (i 1).isLt
  have hi2 : (i 2).val < 192 := (i 2).isLt
  obtain ⟨t, ht⟩ := idx_onto ⟨(i 0).val, hi0⟩ ⟨(i 1).val / 128, by omega⟩
  have q0 : win1_8.index t (0 : Fin 3) = (i 0).val := congrFun ht 0
  have q1 : win1_8.index t (1 : Fin 3) = (i 1).val / 128 := congrFun ht 1
  obtain ⟨-, -, -, -, -, -, -, ⟨g0, g1, g2⟩, -⟩ := idx_facts t
  refine ⟨t, flush1_7 t, ?_⟩
  rw [mem_blk_out]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 128 ≤ (i 1).val ∧ (i 1).val < win1_7.index t (1 : Fin 3) * 128 + 128; omega
  | ⟨2, _⟩ => show win1_7.index t (2 : Fin 3) * 192 ≤ (i 2).val ∧ (i 2).val < win1_7.index t (2 : Fin 3) * 192 + 192; omega

/-! ## The arrays after the call -/

/-- The call's second result array ends at the weights of the entry contents. -/
theorem final_weights (c : Dev nD) : (dat1 V c).arrAt 8 cfg1.N = weightsOf V c :=
  (dat1 V c).arrAt_eq_of_cover 8 _ (fun t _ => flushed_weights V c t) cover_weights

/-- The call's first result array ends at the projected output of the entry contents. -/
theorem final_out (c : Dev nD) : (dat1 V c).arrAt 7 cfg1.N = outOf V c :=
  (dat1 V c).arrAt_eq_of_cover 7 _ (fun t _ => flushed_out V c t) cover_out

end Cert.KernelIdeal.Region1

end
-- ==== Proof.KernelValue.lean ====
/-
  The kernel program computes the specification.

  The run ends with each result array at what the second call's write-backs leave; by the blocks-to-arrays step that is
  the weights (respectively the projected output) of the contents the second call was entered with. Those contents
  are: the nine arguments as launched (neither call writes an argument), and, in the two buffers between the calls, what
  the first call's write-backs leave — key·k_wᵀ and value·v_wᵀ of the launch contents. Substituting gives the two
  whole-array functions of the nine arguments.
-/
import proofs.«418285_j43267500540482_3_alg».proof.Proof.KernelRun
import proofs.«418285_j43267500540482_3_alg».proof.Proof.ProjRegion
import proofs.«418285_j43267500540482_3_alg».proof.Proof.AttnRegion

set_option maxRecDepth 16384

noncomputable section

namespace Cert.KernelIdeal.Results

open Cert.KernelIdeal Cert.KernelIdeal.Gen Cert.AttnSpec
open Idealize.ShloMosaic Idealize.ShloMosaic.TcCoe Idealize.SL.Sem

variable (m : (ℓ : Loc nD τ sig) → Buf (Elt Ideal) ℓ) (ρ : Dev nD → PrngReg)

/-! ## The second call's entry contents -/

theorem entry_query (c : Dev nD) : V1 m ρ c main_arg0 = m ((c.tc : Thread nD τ).loc main_arg0) := W1_of_ne m ρ c main_arg0 (by decide)
theorem entry_mask (c : Dev nD) : V1 m ρ c main_arg3 = m ((c.tc : Thread nD τ).loc main_arg3) := W1_of_ne m ρ c main_arg3 (by decide)
theorem entry_bias (c : Dev nD) : V1 m ρ c main_arg4 = m ((c.tc : Thread nD τ).loc main_arg4) := W1_of_ne m ρ c main_arg4 (by decide)
theorem entry_q_w (c : Dev nD) : V1 m ρ c main_arg5 = m ((c.tc : Thread nD τ).loc main_arg5) := W1_of_ne m ρ c main_arg5 (by decide)
theorem entry_o_w (c : Dev nD) : V1 m ρ c main_arg8 = m ((c.tc : Thread nD τ).loc main_arg8) := W1_of_ne m ρ c main_arg8 (by decide)

/-- Between the calls the first buffer holds key·k_wᵀ of the launch contents. -/
theorem entry_keys (c : Dev nD) :
    V1 m ρ c main_v0_0 = proj (m ((c.tc : Thread nD τ).loc main_arg1)) (m ((c.tc : Thread nD τ).loc main_arg6)) :=
  (W1_arr m ρ c 4).trans (Region0.final_keys (V0 m ρ) c)

/-- And the second holds value·v_wᵀ. -/
theorem entry_values (c : Dev nD) :
    V1 m ρ c main_v0_1 = proj (m ((c.tc : Thread nD τ).loc main_arg2)) (m ((c.tc : Thread nD τ).loc main_arg7)) :=
  (W1_arr m ρ c 5).trans (Region0.final_values (V0 m ρ) c)

/-! ## The two result arrays -/

theorem weights_value (c : Dev nD) :
    (dat1 (V1 m ρ) c).arrAt 8 cfg1.N = attnWeights (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [Region1.final_weights]
  show weights (proj (V1 m ρ c main_arg0) (V1 m ρ c main_arg5)) (V1 m ρ c main_v0_0) (V1 m ρ c main_arg4) (V1 m ρ c main_arg3) = _
  rw [entry_query, entry_q_w, entry_keys, entry_bias, entry_mask]
  rfl

theorem out_value (c : Dev nD) :
    (dat1 (V1 m ρ) c).arrAt 7 cfg1.N = attnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Region1.final_out]
  show proj (mix (weights (proj (V1 m ρ c main_arg0) (V1 m ρ c main_arg5)) (V1 m ρ c main_v0_0) (V1 m ρ c main_arg4) (V1 m ρ c main_arg3))
    (V1 m ρ c main_v0_1)) (V1 m ρ c main_arg8) = _
  rw [entry_query, entry_q_w, entry_keys, entry_bias, entry_mask, entry_values, entry_o_w]
  rfl

/-! ## The run -/

/-- Every weakly fair execution of the kernel program at the ideal instance terminates without a fault with the first
    result at the projected attention output and the second at the attention weights of the nine arguments, the
    arguments unchanged. -/
theorem run_value : θ_run defs (onTc (τ := τ) (main (F := Ideal))) ⟨m, fun _ => 0, ρ⟩ (fun r => ∀ c : Dev nD,
      r.2.mem ((c.tc : Thread nD τ).loc main_v1_0) = attnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v1_1) = attnWeights (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_value m ρ c), (h c).2.1.trans (weights_value m ρ c), (h c).2.2⟩)
    (run_results m ρ)

end Cert.KernelIdeal.Results

end
-- ==== Proof.RefValue.lean ====
/-
  The reference program computes the specification.

  Its run ends with the two results at the composed terms of its twenty-five host operations; read one operation at a
  time (the generated reading lemmas), these are:
    three products x·Wᵀ (each a `dot_general` contracting the last axes: the sum over d of x[b, n, d] · W[e, d]);
    the batched product of projected queries and keys, plus bias, plus mask times the penalty literal: the score;
    the row maximum of the scores, a fold of `max` from the literal −∞ over the key axis, then once more the maximum with
    −∞, which changes nothing because a fold of `max` is at least its start value;
    the exponential of score minus row maximum, its row sum (zero plus a finite sum) and their quotient: the weights;
    the batched product of weights and projected values, and its product with the output matrixᵀ.
  Each index function the reading lemmas compose from the literal shapes is identified with the coordinates it names.
-/
import proofs.«418285_j43267500540482_3_alg».proof.Proof.Gen.ReferenceIdeal.Run
import proofs.«418285_j43267500540482_3_alg».proof.Proof.Gen.ReferenceIdeal.Read
import proofs.«418285_j43267500540482_3_alg».proof.Proof.AttnSpec

noncomputable section

namespace Cert.ReferenceIdeal.RefValue

open Cert.ReferenceIdeal Cert.ReferenceIdeal.Gen Cert.ReferenceIdeal.Read Cert.AttnSpec
open Idealize.ShloMosaic Idealize.ShloMosaic.ValueIdx
open scoped BigOperators

variable (x0 x1 x2 : (⟨S4x4096x192, .f32⟩ : BufTy).Contents (Elt Ideal))
  (x3 x4 : (⟨S4x4096x4096, .f32⟩ : BufTy).Contents (Elt Ideal))
  (x5 x6 x7 x8 : (⟨S192x192, .f32⟩ : BufTy).Contents (Elt Ideal))

/-! ## The three input projections -/

theorem proj_query : val_main_v0 (F := Ideal) x0 x5 = proj x0 x5 := by
  funext i
  rw [val_main_v0_apply]
  show _ = projAt x0 x5 (i 0) (i 1) (i 2)
  unfold projAt
  refine Finset.sum_congr rfl fun k _ => ?_
  have el : lidx_main_v0 i k = ix3 (i 0) (i 1) k := funext fun a => by match a with | ⟨0, _⟩ => rfl | ⟨1, _⟩ => rfl | ⟨2, _⟩ => rfl
  have er : ridx_main_v0 i k = ix2 (i 2) k := funext fun a => by match a with | ⟨0, _⟩ => rfl | ⟨1, _⟩ => rfl
  rw [el, er]
  rfl

theorem proj_key : val_main_v1 (F := Ideal) x1 x6 = proj x1 x6 := by
  funext i
  rw [val_main_v1_apply]
  show _ = projAt x1 x6 (i 0) (i 1) (i 2)
  unfold projAt
  refine Finset.sum_congr rfl fun k _ => ?_
  have el : lidx_main_v1 i k = ix3 (i 0) (i 1) k := funext fun a => by match a with | ⟨0, _⟩ => rfl | ⟨1, _⟩ => rfl | ⟨2, _⟩ => rfl
  have er : ridx_main_v1 i k = ix2 (i 2) k := funext fun a => by match a with | ⟨0, _⟩ => rfl | ⟨1, _⟩ => rfl
  rw [el, er]
  rfl

theorem proj_value : val_main_v2 (F := Ideal) x2 x7 = proj x2 x7 := by
  funext i
  rw [val_main_v2_apply]
  show _ = projAt x2 x7 (i 0) (i 1) (i 2)
  unfold projAt
  refine Finset.sum_congr rfl fun k _ => ?_
  have el : lidx_main_v2 i k = ix3 (i 0) (i 1) k := funext fun a => by match a with | ⟨0, _⟩ => rfl | ⟨1, _⟩ => rfl | ⟨2, _⟩ => rfl
  have er : ridx_main_v2 i k = ix2 (i 2) k := funext fun a => by match a with | ⟨0, _⟩ => rfl | ⟨1, _⟩ => rfl
  rw [el, er]
  rfl

/-! ## The scores -/

theorem score_eq (b : Fin 4) (r s : Fin 4096) :
    val_main_v7 (F := Ideal) x0 x1 x3 x4 x5 x6 (ix3 b r s) = scoreAt (proj x0 x5) (proj x1 x6) x4 x3 b r s := by
  rw [val_main_v7_apply, val_main_v4_apply, val_main_v3_apply, val_main_v6_apply, val_main_v5_apply, val_main_cst_apply,
    proj_query, proj_key]
  have el : ∀ k, lidx_main_v3 (ix3 b r s) k = ix3 b r k := fun k =>
    funext fun a => by match a with | ⟨0, _⟩ => rfl | ⟨1, _⟩ => rfl | ⟨2, _⟩ => rfl
  have er : ∀ k, ridx_main_v3 (ix3 b r s) k = ix3 b s k := fun k =>
    funext fun a => by match a with | ⟨0, _⟩ => rfl | ⟨1, _⟩ => rfl | ⟨2, _⟩ => rfl
  simp only [el, er]
  rfl

/-! ## The row maximum -/

theorem rowMax_eq (b : Fin 4) (r : Fin 4096) :
    val_main_v10 (F := Ideal) x0 x1 x3 x4 x5 x6 (ix2 b r) = rowMax (scoreAt (proj x0 x5) (proj x1 x6) x4 x3 b r) := by
  rw [val_main_v10_apply, val_main_v9_apply, val_main_cst_1_apply]
  unfold val_main_v8
  rw [Host.reduce_eq_fold_single FloatOps.maximumf _ _ reducesTo_S4x4096x4096_S4x4096_d2 (by decide) h_S_]
  have hl : ∀ k : Fin 4096, (show S4x4096x4096.Reduces [2] S4x4096 by decide).lift (ix2 b r) k = ix3 b r k := fun k =>
    funext fun a => Fin.ext (by match a with | ⟨0, _⟩ => rfl | ⟨1, _⟩ => rfl | ⟨2, _⟩ => rfl)
  have hf : (val_main_v7 (F := Ideal) x0 x1 x3 x4 x5 x6 ∘ (show S4x4096x4096.Reduces [2] S4x4096 by decide).lift (ix2 b r))
      = scoreAt (proj x0 x5) (proj x1 x6) x4 x3 b r := funext fun (k : Fin 4096) => by
    show val_main_v7 (F := Ideal) x0 x1 x3 x4 x5 x6 ((show S4x4096x4096.Reduces [2] S4x4096 by decide).lift (ix2 b r) k) = _
    rw [hl k, score_eq]
  rw [hf]
  exact max_rowMax _

/-! ## The weights -/

theorem expo_eq (b : Fin 4) (r s : Fin 4096) :
    val_main_v14 (F := Ideal) x0 x1 x3 x4 x5 x6 (ix3 b r s)
      = Ideal.exp (scoreAt (proj x0 x5) (proj x1 x6) x4 x3 b r s - rowMax (scoreAt (proj x0 x5) (proj x1 x6) x4 x3 b r)) := by
  rw [val_main_v14_apply, val_main_v13_apply, val_main_v12_apply, val_main_v11_apply]
  have e : idx_main_v11 (idx_main_v12 (ix3 b r s)) = ix2 b r := funext fun a => by match a with | ⟨0, _⟩ => rfl | ⟨1, _⟩ => rfl
  rw [e, rowMax_eq, score_eq]
  rfl

theorem weights_eq : val_main_v18 (F := Ideal) x0 x1 x3 x4 x5 x6 = attnWeights x0 x1 x3 x4 x5 x6 := by
  funext i
  obtain ⟨b, r, s, rfl⟩ : ∃ (b : Fin 4) (r s : Fin 4096), i = ix3 b r s := ⟨i 0, i 1, i 2, eq_ix3 i⟩
  rw [val_main_v18_apply, val_main_v17_apply, val_main_v16_apply]
  have e : idx_main_v16 (idx_main_v17 (ix3 b r s)) = ix2 b r := funext fun a => by match a with | ⟨0, _⟩ => rfl | ⟨1, _⟩ => rfl
  rw [e, val_main_v15_apply, val_main_cst_2_apply]
  have ek : ∀ k, idx_main_v15 (ix2 b r) k = ix3 b r k := fun k =>
    funext fun a => by match a with | ⟨0, _⟩ => rfl | ⟨1, _⟩ => rfl | ⟨2, _⟩ => rfl
  simp only [ek, expo_eq]
  show Ideal.div _ (Ideal.ofBits .f32 0x00000000#32 + _) = _
  rw [Ideal.ofBits_zero_f32, zero_add]
  rfl

/-! ## The output -/

theorem mix_eq : val_main_v19 (F := Ideal) x0 x1 x2 x3 x4 x5 x6 x7 = mix (attnWeights x0 x1 x3 x4 x5 x6) (proj x2 x7) := by
  funext i
  rw [val_main_v19_apply, weights_eq, proj_value]
  show _ = mixAt (attnWeights x0 x1 x3 x4 x5 x6) (proj x2 x7) (i 0) (i 1) (i 2)
  unfold mixAt
  refine Finset.sum_congr rfl fun k _ => ?_
  have el : lidx_main_v19 i k = ix3 (i 0) (i 1) k := funext fun a => by match a with | ⟨0, _⟩ => rfl | ⟨1, _⟩ => rfl | ⟨2, _⟩ => rfl
  have er : ridx_main_v19 i k = ix3 (i 0) k (i 2) := funext fun a => by match a with | ⟨0, _⟩ => rfl | ⟨1, _⟩ => rfl | ⟨2, _⟩ => rfl
  rw [el, er]
  rfl

theorem out_eq : val_main_v20 (F := Ideal) x0 x1 x2 x3 x4 x5 x6 x7 x8 = attnOut x0 x1 x2 x3 x4 x5 x6 x7 x8 := by
  funext i
  rw [val_main_v20_apply, mix_eq]
  show _ = projAt (mix (attnWeights x0 x1 x3 x4 x5 x6) (proj x2 x7)) x8 (i 0) (i 1) (i 2)
  unfold projAt
  refine Finset.sum_congr rfl fun k _ => ?_
  have el : lidx_main_v20 i k = ix3 (i 0) (i 1) k := funext fun a => by match a with | ⟨0, _⟩ => rfl | ⟨1, _⟩ => rfl | ⟨2, _⟩ => rfl
  have er : ridx_main_v20 i k = ix2 (i 2) k := funext fun a => by match a with | ⟨0, _⟩ => rfl | ⟨1, _⟩ => rfl
  rw [el, er]
  rfl

end Cert.ReferenceIdeal.RefValue

end
-- ==== Proof.lean ====
/-
  Single-head attention with linear projections: a two-call kernel program against its plain reference, over the
  extended reals.

  The kernel program projects keys and values in a first call (x·Wᵀ, block of 512 rows by block), then in a second call,
  for each block of 128 query rows, projects the queries, forms the scores against all projected keys of the batch,
  adds bias and mask·(−10⁹), takes the softmax of each row in one pass, stores these weights, and stores the weights
  times the projected values, times o_wᵀ. The reference does the same with whole-array operations. At the ideal
  instance a change of float format is the identity and every sum is a finite sum in a commutative monoid, so both
  programs compute ONE pair of whole-array functions of the nine arguments (`Cert.AttnSpec.attnOut`,
  `Cert.AttnSpec.attnWeights`): the same products in the same grouping, the same two literals, the same total
  exponential and division. The only step of the reference with no counterpart in the kernel, a second maximum of each
  row maximum with −∞, changes nothing. No law that needs finite inputs is used, so the precondition is never opened.

  The three frames: the two kernel programs' are the generated frame certificates; the reference's is its generated run
  with the results dropped. The idealization rewrote no operation, so that conjunct is trivial. The last conjunct puts
  the kernel program's run (its two results read off the second call's write-backs, each block identified with the
  block of the whole-array function) beside the reference's run (read one operation at a time) at arguments that agree.
-/
import proofs.«418285_j43267500540482_3_alg».proof.Defs
import proofs.«418285_j43267500540482_3_alg».proof.Proof.Gen.Kernel
import proofs.«418285_j43267500540482_3_alg».proof.Proof.Gen.Kernel.Skeleton
import proofs.«418285_j43267500540482_3_alg».proof.Proof.Gen.Kernel.Launch
import proofs.«418285_j43267500540482_3_alg».proof.Proof.Gen.Kernel.Points
import proofs.«418285_j43267500540482_3_alg».proof.Proof.Gen.Kernel.Frame
import proofs.«418285_j43267500540482_3_alg».proof.Proof.Gen.KernelIdeal
import proofs.«418285_j43267500540482_3_alg».proof.Proof.Gen.KernelIdeal.Skeleton
import proofs.«418285_j43267500540482_3_alg».proof.Proof.Gen.KernelIdeal.Launch
import proofs.«418285_j43267500540482_3_alg».proof.Proof.Gen.KernelIdeal.Points
import proofs.«418285_j43267500540482_3_alg».proof.Proof.Gen.KernelIdeal.Frame
import proofs.«418285_j43267500540482_3_alg».proof.Proof.Gen.ReferenceIdeal
import proofs.«418285_j43267500540482_3_alg».proof.Proof.Gen.ReferenceIdeal.Run
import proofs.«418285_j43267500540482_3_alg».proof.Proof.Gen.ReferenceIdeal.Read
import proofs.«418285_j43267500540482_3_alg».proof.Proof.Gen.Pre_finite_inputs
import proofs.«418285_j43267500540482_3_alg».proof.Proof.KernelValue
import proofs.«418285_j43267500540482_3_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the projected attention output and the attention weights of arguments that agree. -/
theorem algebraic : Cert.algebraic_KernelIdeal_ReferenceIdeal := by
  intro m ρ m' ρ' _ hagree
  refine ⟨fun c => Cert.AttnSpec.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.AttnSpec.attnWeights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Results.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v20_eq (F := Ideal) _ _ _ _ _ _ _ _ _).trans ?_
    rw [Cert.ReferenceIdeal.RefValue.out_eq]
    obtain ⟨a0, a1, a2, a3, a4, a5, a6, a7, a8⟩ := hagree c
    rw [a0, a1, a2, a3, a4, a5, a6, a7, a8]
  · refine (Cert.ReferenceIdeal.Read.val_main_v18_eq (F := Ideal) _ _ _ _ _ _).trans ?_
    rw [Cert.ReferenceIdeal.RefValue.weights_eq]
    obtain ⟨a0, a1, -, a3, a4, a5, a6, -, -⟩ := hagree c
    rw [a0, a1, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
